-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2304 : Shape := ⟨2, ![2048, 2304]⟩
abbrev S2048x1024 : Shape := ⟨2, ![2048, 1024]⟩
abbrev S1024x4352 : Shape := ⟨2, ![1024, 4352]⟩
abbrev S1024 : Shape := ⟨1, ![1024]⟩
abbrev S_ : Shape := ⟨0, ![]⟩

class Facts : Prop where
  bcast_S_S2048x2304 : S_.BroadcastsInDim S2048x2304 (![] : Fin 0 → Fin S2048x2304.rank)
  reducesTo_S2048x2304_S_d0_1 : S2048x2304.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x4352 : S_.BroadcastsInDim S1024x4352 (![] : Fin 0 → Fin S1024x4352.rank)
  reducesTo_S1024x4352_S_d0_1 : S1024x4352.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x4352 .f32) (main_v50 : FVec F S1024x4352 .f32) : IVec S_ 1 :=
  let main_v51 : IVec S1024x4352 1 := cmpf .olt main_v49 main_v50
  let main_c_19 : IVec S_ 1 := constantI S_ 1 1#1
  let main_v52 : IVec S_ 1 := (fun x v => Host.reduce IntOp.andi x v reducesTo_S1024x4352_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x4352 .f32) (main_arg9 : FVec F S1024 .f32) (main_arg10 : FVec F S1024x4352 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4352 .f32 := Host.absf main_arg8
  let main_cst_14 : FVec F S_ .f32 := constant S_ .f32 0x7F800000#32
  let main_v40 : FVec F S1024x4352 .f32 := broadcastInDim S1024x4352 ![] bcast_S_S1024x4352 main_cst_14
  let main_v41 : IVec S1024x4352 1 := cmpf .olt main_v39 main_v40
  let main_c_15 : IVec S_ 1 := constantI S_ 1 1#1
  let main_v42 : IVec S_ 1 := (fun x v => Host.reduce IntOp.andi x v reducesTo_S1024x4352_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x4352 .f32 := Host.absf main_arg10
  let main_cst_18 : FVec F S_ .f32 := constant S_ .f32 0x7F800000#32
  let main_v50 : FVec F S1024x4352 .f32 := broadcastInDim S1024x4352 ![] bcast_S_S1024x4352 main_cst_18
  fn_part3 (F := F) main_arg11 main_v48 main_v49 main_v50

def fn_part1 {F : FTy → Type} [FloatOps F] (main_arg4 : FVec F S1024x4352 .f32) (main_arg5 : FVec F S1024 .f32) (main_arg6 : FVec F S1024x4352 .f32) (main_arg7 : FVec F S1024 .f32) (main_arg8 : FVec F S1024x4352 .f32) (main_arg9 : FVec F S1024 .f32) (main_arg10 : FVec F S1024x4352 .f32) (main_arg11 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024x4352 .f32 := Host.absf main_arg4
  let main_cst_6 : FVec F S_ .f32 := constant S_ .f32 0x7F800000#32
  let main_v20 : FVec F S1024x4352 .f32 := broadcastInDim S1024x4352 ![] bcast_S_S1024x4352 main_cst_6
  let main_v21 : IVec S1024x4352 1 := cmpf .olt main_v19 main_v20
  let main_c_7 : IVec S_ 1 := constantI S_ 1 1#1
  let main_v22 : IVec S_ 1 := (fun x v => Host.reduce IntOp.andi x v reducesTo_S1024x4352_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4352 .f32 := Host.absf main_arg6
  let main_cst_10 : FVec F S_ .f32 := constant S_ .f32 0x7F800000#32
  let main_v30 : FVec F S1024x4352 .f32 := broadcastInDim S1024x4352 ![] bcast_S_S1024x4352 main_cst_10
  let main_v31 : IVec S1024x4352 1 := cmpf .olt main_v29 main_v30
  let main_c_11 : IVec S_ 1 := constantI S_ 1 1#1
  let main_v32 : IVec S_ 1 := (fun x v => Host.reduce IntOp.andi x v reducesTo_S1024x4352_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x2304 .f32) (main_arg1 : FVec F S2048x1024 .f32) (main_arg2 : FVec F S2048x1024 .f32) (main_arg3 : FVec F S2048x1024 .f32) (main_arg4 : FVec F S1024x4352 .f32) (main_arg5 : FVec F S1024 .f32) (main_arg6 : FVec F S1024x4352 .f32) (main_arg7 : FVec F S1024 .f32) (main_arg8 : FVec F S1024x4352 .f32) (main_arg9 : FVec F S1024 .f32) (main_arg10 : FVec F S1024x4352 .f32) (main_arg11 : FVec F S1024 .f32) : IVec S_ 1 :=
  let main_v0 : FVec F S2048x2304 .f32 := Host.absf main_arg0
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  let main_c : IVec S_ 1 := constantI S_ 1 1#1
  let main_v3 : IVec S_ 1 := (fun x v => Host.reduce IntOp.andi x v reducesTo_S2048x2304_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_v13 main_v16
-- ==== Kernel.lean ====
abbrev S2048x2304 : Shape := ⟨2, ![2048, 2304]⟩
abbrev S2048x1024 : Shape := ⟨2, ![2048, 1024]⟩
abbrev S1024x4352 : Shape := ⟨2, ![1024, 4352]⟩
abbrev S1024 : Shape := ⟨1, ![1024]⟩
abbrev S2048x4352 : Shape := ⟨2, ![2048, 4352]⟩
abbrev S256x256 : Shape := ⟨2, ![256, 256]⟩
abbrev S1024x256 : Shape := ⟨2, ![1024, 256]⟩
abbrev S256x1024 : Shape := ⟨2, ![256, 1024]⟩
abbrev S1x1024 : Shape := ⟨2, ![1, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2048x2304, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x4352, .f32⟩
  | .hbm, ⟨5, _⟩ => ⟨S1024, .f32⟩
  | .hbm, ⟨6, _⟩ => ⟨S1024x4352, .f32⟩
  | .hbm, ⟨7, _⟩ => ⟨S1024, .f32⟩
  | .hbm, ⟨8, _⟩ => ⟨S1024x4352, .f32⟩
  | .hbm, ⟨9, _⟩ => ⟨S1024, .f32⟩
  | .hbm, ⟨10, _⟩ => ⟨S1024x4352, .f32⟩
  | .hbm, ⟨11, _⟩ => ⟨S1024, .f32⟩
  | .hbm, ⟨12, _⟩ => ⟨S2048x4352, .f32⟩
  | .hbm, ⟨13, _⟩ => ⟨S2048x1024, .f32⟩
  | .local _ .vmem, ⟨0, _⟩ => ⟨S256x256, .f32⟩
  | .local _ .vmem, ⟨1, _⟩ => ⟨S256x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c16_i32 : BitVec 32 := 16#32
  let v38 : BitVec 1 := Scalar.cmpi .eq arg1 c16_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S2048x2304_S2048x1024_S2048x1024_S2048x4352_d1 : Shape.Concatenates [S2048x2304, S2048x1024, S2048x1024] S2048x4352 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x4352.size a
  hwx0_0 : ∀ i : grid0.Coords, EltTy.bits .f32 = 32 ∨ (Rect.block (s := S2048x4352) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x4352.size a
  hwx0_1 : ∀ i : grid0.Coords, EltTy.bits .f32 = 32 ∨ (Rect.block (s := S1024x4352) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x4352.size a
  hwx0_2 : ∀ i : grid0.Coords, EltTy.bits .f32 = 32 ∨ (Rect.block (s := S1024x4352) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x4352.size a
  hwx0_3 : ∀ i : grid0.Coords, EltTy.bits .f32 = 32 ∨ (Rect.block (s := S1024x4352) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x4352.size a
  hwx0_4 : ∀ i : grid0.Coords, EltTy.bits .f32 = 32 ∨ (Rect.block (s := S1024x4352) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S2048x1024.size a
  hwx0_9 : ∀ i : grid0.Coords, EltTy.bits .f32 = 32 ∨ (Rect.block (s := S2048x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S2048x1024.size a
  hwx0_10 : ∀ i : grid0.Coords, EltTy.bits .f32 = 32 ∨ (Rect.block (s := S2048x1024) S256x1024.size (cc0_transform_10 i) (hinb0_10 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S256x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S2048x2304 : Shape := ⟨2, ![2048, 2304]⟩
abbrev S2048x1024 : Shape := ⟨2, ![2048, 1024]⟩
abbrev S1024x4352 : Shape := ⟨2, ![1024, 4352]⟩
abbrev S1024 : Shape := ⟨1, ![1024]⟩
abbrev S2048x4352 : Shape := ⟨2, ![2048, 4352]⟩
abbrev S4096x4352 : Shape := ⟨2, ![4096, 4352]⟩
abbrev S4096 : Shape := ⟨1, ![4096]⟩
abbrev S4352x4096 : Shape := ⟨2, ![4352, 4096]⟩
abbrev S2048x4096 : Shape := ⟨2, ![2048, 4096]⟩
abbrev S1x4096 : Shape := ⟨2, ![1, 4096]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x4352, .f32⟩
  | .hbm, ⟨5, _⟩ => ⟨S1024, .f32⟩
  | .hbm, ⟨6, _⟩ => ⟨S1024x4352, .f32⟩
  | .hbm, ⟨7, _⟩ => ⟨S1024, .f32⟩
  | .hbm, ⟨8, _⟩ => ⟨S1024x4352, .f32⟩
  | .hbm, ⟨9, _⟩ => ⟨S1024, .f32⟩
  | .hbm, ⟨10, _⟩ => ⟨S1024x4352, .f32⟩
  | .hbm, ⟨11, _⟩ => ⟨S1024, .f32⟩
  | .hbm, ⟨12, _⟩ => ⟨S2048x4352, .f32⟩
  | .hbm, ⟨13, _⟩ => ⟨S4096x4352, .f32⟩
  | .hbm, ⟨14, _⟩ => ⟨S4096, .f32⟩
  | .hbm, ⟨15, _⟩ => ⟨S4352x4096, .f32⟩
  | .hbm, ⟨16, _⟩ => ⟨S2048x4096, .f32⟩
  | .hbm, ⟨17, _⟩ => ⟨S1x4096, .f32⟩
  | .hbm, ⟨18, _⟩ => ⟨S2048x4096, .f32⟩
  | .hbm, ⟨19, _⟩ => ⟨S2048x4096, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  concatenates_S2048x2304_S2048x1024_S2048x1024_S2048x4352_d1 : Shape.Concatenates [S2048x2304, S2048x1024, S2048x1024] S2048x4352 1
  concatenates_S1024x4352_S1024x4352_S1024x4352_S1024x4352_S4096x4352_d0 : Shape.Concatenates [S1024x4352, S1024x4352, S1024x4352, S1024x4352] S4096x4352 0
  concatenates_S1024_S1024_S1024_S1024_S4096_d0 : Shape.Concatenates [S1024, S1024, S1024, S1024] S4096 0
  transposes_S4096x4352_S4352x4096_1_0 : S4096x4352.Transposes [1, 0] S4352x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  dot_S2048x4352_S4352x4096_S2048x4096_1_0_0_1_n_n_wf : DotDims.WF S2048x4352 S4352x4096 S2048x4096 [1] [0] [0] [1] [] []

variable [Facts₀]

def dot_S2048x4352_S4352x4096_S2048x4096_1_0_0_1_n_n : DotDims S2048x4352 S4352x4096 S2048x4096 where
  lhsContracting := [1]
  rhsContracting := [0]
  lhsNonContracting := [0]
  rhsNonContracting := [1]
  lhsBatch := []
  rhsBatch := []
  wf := dot_S2048x4352_S4352x4096_S2048x4096_1_0_0_1_n_n_wf

class Facts : Prop extends Facts₀ where

variable [Facts]
-- ==== Proof.FrKernel.Kit.lean ====
import proofs.«150288_j28784870818476_1_alg».proof.Proof.Gen.Kernel.Launch
import proofs.«150288_j28784870818476_1_alg».proof.Proof.Gen.Kernel.Skeleton
import proofs.«150288_j28784870818476_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The LSTM cell's program around its one region

@main is one host line, the concatenation `z = [x | h_time | h_layer]` along the columns, followed by the
region: a grid of 8 row blocks by 17 column blocks of `z`. This module states what the region finds in every
buffer (the arguments as launched, `z` the concatenation), each window's block at a grid point, the two
conditions the body branches on in closed form (the first column block: `t % 17 = 0`; the last:
`t % 17 = 16`), where the one output window is idle, and how the frame claim follows from a run of the region
that leaves every input array as it found it.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the one host line. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes `z`'s buffer only: any other buffer is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)
theorem V_main_arg7 (c : Dev nD) : V m c main_arg7 = m ((c : Thread nD τ).loc main_arg7) := V_of_ne m c _ (by decide)
theorem V_main_arg8 (c : Dev nD) : V m c main_arg8 = m ((c : Thread nD τ).loc main_arg8) := V_of_ne m c _ (by decide)
theorem V_main_arg9 (c : Dev nD) : V m c main_arg9 = m ((c : Thread nD τ).loc main_arg9) := V_of_ne m c _ (by decide)
theorem V_main_arg10 (c : Dev nD) : V m c main_arg10 = m ((c : Thread nD τ).loc main_arg10) := V_of_ne m c _ (by decide)
theorem V_main_arg11 (c : Dev nD) : V m c main_arg11 = m ((c : Thread nD τ).loc main_arg11) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the fetch. One statement per input window, for any proof data whose arrays are
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run that ends with every array of the
    pipeline at what the data compute and every other unscoped buffer as the region found it ends with the twelve
    argument arrays as launched: `x`, `h_time`, `h_layer` bypass the region (the host line only read them); the old
    state, the four weight matrices and the four biases are input windows, whose arrays end as found. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 9).trans (((dats 0 c).arrAt_in 9 rfl _).trans ((hA c 9).trans (V_main_arg3 m c))),
      ((h c).1 1).trans (((dats 0 c).arrAt_in 1 rfl _).trans ((hA c 1).trans (V_main_arg4 m c))),
      ((h c).1 5).trans (((dats 0 c).arrAt_in 5 rfl _).trans ((hA c 5).trans (V_main_arg5 m c))),
      ((h c).1 2).trans (((dats 0 c).arrAt_in 2 rfl _).trans ((hA c 2).trans (V_main_arg6 m c))),
      ((h c).1 6).trans (((dats 0 c).arrAt_in 6 rfl _).trans ((hA c 6).trans (V_main_arg7 m c))),
      ((h c).1 3).trans (((dats 0 c).arrAt_in 3 rfl _).trans ((hA c 3).trans (V_main_arg8 m c))),
      ((h c).1 7).trans (((dats 0 c).arrAt_in 7 rfl _).trans ((hA c 7).trans (V_main_arg9 m c))),
      ((h c).1 4).trans (((dats 0 c).arrAt_in 4 rfl _).trans ((hA c 4).trans (V_main_arg10 m c))),
      ((h c).1 8).trans (((dats 0 c).arrAt_in 8 rfl _).trans ((hA c 8).trans (V_main_arg11 m c)))⟩) h

/-! ## The body's two branch conditions -/

/-- "This is the first column block" (`k = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 17). -/
theorem hcond0_0 : ∀ t : Fin cfg0.N, cond0_0 (grid0.coords t) ↔ t.val % 17 = 0 :=
  (by decide +kernel : ∀ t : Fin grid0.N, cond0_0 (grid0.coords t) ↔ t.val % 17 = 0)

/-- "This is the last column block" (`k = 16`). -/
abbrev cond0_1 (i : grid0.Coords) : Prop := k0_cond2 i = 1#1
/-- It holds at the points ≡ 16 (mod 17). -/
theorem hcond0_1 : ∀ t : Fin cfg0.N, cond0_1 (grid0.coords t) ↔ t.val % 17 = 16 :=
  (by decide +kernel : ∀ t : Fin grid0.N, cond0_1 (grid0.coords t) ↔ t.val % 17 = 16)

/-! ## Where the output window is idle -/

/-- Away from the last column block the body stores nothing into the output's staging buffer, -/
theorem idleAt0_10 : ∀ t : Fin cfg0.N, ¬cond0_1 (grid0.coords t) → cfg0.idle 10 (grid0.coords t) = true := by decide +kernel
/-- and the pipeline does not write it back there; -/
theorem noFlush0_10 : ∀ t : Fin cfg0.N, ¬cond0_1 (grid0.coords t) → (cfg0.win 10).flush t = false := by decide +kernel
/-- at the last column block it stores the new hidden state's block. -/
theorem liveAt0_10 : ∀ t : Fin cfg0.N, cond0_1 (grid0.coords t) → cfg0.idle 10 (grid0.coords t) = false := by decide +kernel

/-! ## The memrefs the body is called with -/

/-- One staging buffer of the output window, through which its contents are stated. -/
abbrev VO0_10 : View sig .tc .vmem S256x1024 .f32 := (Memref.whole cc0_stg10_0 : Memref sig .tc .vmem S256x1024 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
/-- The four accumulators (input, forget, output, state gate): whole scoped buffers of the kernel's own. -/
abbrev scM0_0 : Memref sig .tc .vmem S256x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S256x1024 .f32 := Memref.whole cc0_scratch3
/-- The accumulators as views: what each holds between points is stated through them. -/
abbrev VS0_0 : View sig .tc .vmem S256x1024 .f32 := scM0_0.view
abbrev VS0_1 : View sig .tc .vmem S256x1024 .f32 := scM0_1.view
abbrev VS0_2 : View sig .tc .vmem S256x1024 .f32 := scM0_2.view
abbrev VS0_3 : View sig .tc .vmem S256x1024 .f32 := scM0_3.view

/-- The region's class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.FrKernel.RunB.lean ====
import proofs.«150288_j28784870818476_1_alg».proof.Proof.FrKernel.Kit

/-!
# The body's run at a middle column block
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE column block (neither the first nor the last): the four accumulators are each loaded, added the
    product of the point's block of `z` with the gate's weight block, and stored whole; the output's staging buffer
    is not touched. Given the input buffers at their contents, the output's at contents handed back untouched, and
    the accumulators at what the point before left, the body runs to a continuation that holds the inputs as they
    were and each accumulator with its stored pieces written; the pieces are the witnesses the run finds. -/
noncomputable def kernelRun0_B (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : ¬cond0_0 i) (hc1 : ¬cond0_1 i)
    (x0 : Vec F S256x256 .f32) (x1 x2 x3 x4 : Vec F S1024x256 .f32) (x5 x6 x7 x8 : Vec F S1024 .f32) (x9 : Vec F S256x1024 .f32)
    (xs0 xs1 xs2 xs3 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (xi10 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
            ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, fun xi10 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.Kernel.Fr

end
-- ==== Proof.FrKernel.RunA.lean ====
import proofs.«150288_j28784870818476_1_alg».proof.Proof.FrKernel.RunB

/-!
# The body's run at the first column block
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The FIRST column block of a row block: each accumulator is first stored whole with zeros, then loaded, added the
    product of the point's block of `z` with the gate's weight block, and stored whole; the output's staging buffer
    is not touched. The accumulators may hold anything on entry. The body runs to a continuation that holds the
    inputs as they were, the output's buffer untouched and each accumulator with its two stored pieces written. -/
noncomputable def kernelRun0_A (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : cond0_0 i) (hc1 : ¬cond0_1 i)
    (x0 : Vec F S256x256 .f32) (x1 x2 x3 x4 : Vec F S1024x256 .f32) (x5 x6 x7 x8 : Vec F S1024 .f32) (x9 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (xi10 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, fun xi10 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.Kernel.Fr

end
-- ==== Proof.FrKernel.RunC.lean ====
import proofs.«150288_j28784870818476_1_alg».proof.Proof.FrKernel.RunA

/-!
# The body's run at the last column block
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The LAST column block of a row block: the accumulators are updated as at a middle block, then loaded once more,
    each added its gate's bias, and the new hidden state `σ(o) · tanh(σ(f) · c_old + σ(i) · tanh(s))` is stored
    whole into the output's staging buffer, which may hold anything on entry. The body runs to a continuation that
    holds the inputs as they were, and the output's buffer and each accumulator with their stored pieces written. -/
noncomputable def kernelRun0_C (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : ¬cond0_0 i) (hc1 : cond0_1 i)
    (x0 : Vec F S256x256 .f32) (x1 x2 x3 x4 : Vec F S1024x256 .f32) (x5 x6 x7 x8 : Vec F S1024 .f32) (x9 : Vec F S256x1024 .f32)
    (xs0 xs1 xs2 xs3 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
            ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.Kernel.Fr

end
-- ==== Proof.FrKernel.Frame.lean ====
import proofs.«150288_j28784870818476_1_alg».proof.Proof.FrKernel.RunC

/-!
# What the accumulators and the output hold point by point; the proof data; the frame
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The output block's and the four accumulators' contents, in that order. -/
abbrev Outs (F : FTy → Type) [FloatOps F] : Type :=
  Vec F S256x1024 .f32 × Vec F S256x1024 .f32 × Vec F S256x1024 .f32 × Vec F S256x1024 .f32 × Vec F S256x1024 .f32

/-- The first-block run at point `t`, on the point's staging buffers and input blocks. -/
abbrev runA (c : Dev nD) (t : Fin cfg0.N) (h0 : t.val % 17 = 0) (h1 : ¬t.val % 17 = 16) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
/-- The middle-block run at point `t`, over what the point before left in the accumulators. -/
abbrev runB (c : Dev nD) (t : Fin cfg0.N) (h0 : ¬t.val % 17 = 0) (h1 : ¬t.val % 17 = 16) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2
/-- The last-block run at point `t`, over what the point before left in the accumulators. -/
abbrev runC (c : Dev nD) (t : Fin cfg0.N) (h0 : ¬t.val % 17 = 0) (h1 : t.val % 17 = 16) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2

/-- What the first-block run leaves: the output's buffer is not stored into (a placeholder nothing consults), each
    accumulator holds its stored pieces read back. -/
def outsOfA (c : Dev nD) (t : Fin cfg0.N) (h0 : t.val % 17 = 0) (h1 : ¬t.val % 17 = 16) : Outs F :=
  (VO0_10.read (Elt F) (VO0_10.writes (Elt F) VO0_10.junk (runA m c t h0 h1).1),
   VS0_0.read (Elt F) (VS0_0.writes (Elt F) VS0_0.junk (runA m c t h0 h1).2.1),
   VS0_1.read (Elt F) (VS0_1.writes (Elt F) VS0_1.junk (runA m c t h0 h1).2.2.1),
   VS0_2.read (Elt F) (VS0_2.writes (Elt F) VS0_2.junk (runA m c t h0 h1).2.2.2.1),
   VS0_3.read (Elt F) (VS0_3.writes (Elt F) VS0_3.junk (runA m c t h0 h1).2.2.2.2.1))
/-- What the middle-block run leaves. -/
def outsOfB (c : Dev nD) (t : Fin cfg0.N) (h0 : ¬t.val % 17 = 0) (h1 : ¬t.val % 17 = 16) (p : Outs F) : Outs F :=
  (VO0_10.read (Elt F) (VO0_10.writes (Elt F) VO0_10.junk (runB m c t h0 h1 p).1),
   VS0_0.read (Elt F) (VS0_0.writes (Elt F) VS0_0.junk (runB m c t h0 h1 p).2.1),
   VS0_1.read (Elt F) (VS0_1.writes (Elt F) VS0_1.junk (runB m c t h0 h1 p).2.2.1),
   VS0_2.read (Elt F) (VS0_2.writes (Elt F) VS0_2.junk (runB m c t h0 h1 p).2.2.2.1),
   VS0_3.read (Elt F) (VS0_3.writes (Elt F) VS0_3.junk (runB m c t h0 h1 p).2.2.2.2.1))
/-- What the last-block run leaves: the output's buffer holds its stored piece, the new hidden state's block. -/
def outsOfC (c : Dev nD) (t : Fin cfg0.N) (h0 : ¬t.val % 17 = 0) (h1 : t.val % 17 = 16) (p : Outs F) : Outs F :=
  (VO0_10.read (Elt F) (VO0_10.writes (Elt F) VO0_10.junk (runC m c t h0 h1 p).1),
   VS0_0.read (Elt F) (VS0_0.writes (Elt F) VS0_0.junk (runC m c t h0 h1 p).2.1),
   VS0_1.read (Elt F) (VS0_1.writes (Elt F) VS0_1.junk (runC m c t h0 h1 p).2.2.1),
   VS0_2.read (Elt F) (VS0_2.writes (Elt F) VS0_2.junk (runC m c t h0 h1 p).2.2.2.1),
   VS0_3.read (Elt F) (VS0_3.writes (Elt F) VS0_3.junk (runC m c t h0 h1 p).2.2.2.2.1))

/-! ## The stored pieces cover their buffers -/

theorem scoverA_0 (c : Dev nD) (t : Fin cfg0.N) (h0 : t.val % 17 = 0) (h1 : ¬t.val % 17 = 16) (y : S256x1024.Idx) :
    ∃ pc ∈ (runA m c t h0 h1).2.1, y ∈ pc.1.set :=
  View.cover_of_tiledL (runA m c t h0 h1).2.1 S256x1024.size (by sl_kernel_rfl) y
theorem scoverA_1 (c : Dev nD) (t : Fin cfg0.N) (h0 : t.val % 17 = 0) (h1 : ¬t.val % 17 = 16) (y : S256x1024.Idx) :
    ∃ pc ∈ (runA m c t h0 h1).2.2.1, y ∈ pc.1.set :=
  View.cover_of_tiledL (runA m c t h0 h1).2.2.1 S256x1024.size (by sl_kernel_rfl) y
theorem scoverA_2 (c : Dev nD) (t : Fin cfg0.N) (h0 : t.val % 17 = 0) (h1 : ¬t.val % 17 = 16) (y : S256x1024.Idx) :
    ∃ pc ∈ (runA m c t h0 h1).2.2.2.1, y ∈ pc.1.set :=
  View.cover_of_tiledL (runA m c t h0 h1).2.2.2.1 S256x1024.size (by sl_kernel_rfl) y
theorem scoverA_3 (c : Dev nD) (t : Fin cfg0.N) (h0 : t.val % 17 = 0) (h1 : ¬t.val % 17 = 16) (y : S256x1024.Idx) :
    ∃ pc ∈ (runA m c t h0 h1).2.2.2.2.1, y ∈ pc.1.set :=
  View.cover_of_tiledL (runA m c t h0 h1).2.2.2.2.1 S256x1024.size (by sl_kernel_rfl) y

theorem scoverB_0 (c : Dev nD) (t : Fin cfg0.N) (h0 : ¬t.val % 17 = 0) (h1 : ¬t.val % 17 = 16) (p : Outs F) (y : S256x1024.Idx) :
    ∃ pc ∈ (runB m c t h0 h1 p).2.1, y ∈ pc.1.set :=
  View.cover_of_tiledL (runB m c t h0 h1 p).2.1 S256x1024.size (by sl_kernel_rfl) y
theorem scoverB_1 (c : Dev nD) (t : Fin cfg0.N) (h0 : ¬t.val % 17 = 0) (h1 : ¬t.val % 17 = 16) (p : Outs F) (y : S256x1024.Idx) :
    ∃ pc ∈ (runB m c t h0 h1 p).2.2.1, y ∈ pc.1.set :=
  View.cover_of_tiledL (runB m c t h0 h1 p).2.2.1 S256x1024.size (by sl_kernel_rfl) y
theorem scoverB_2 (c : Dev nD) (t : Fin cfg0.N) (h0 : ¬t.val % 17 = 0) (h1 : ¬t.val % 17 = 16) (p : Outs F) (y : S256x1024.Idx) :
    ∃ pc ∈ (runB m c t h0 h1 p).2.2.2.1, y ∈ pc.1.set :=
  View.cover_of_tiledL (runB m c t h0 h1 p).2.2.2.1 S256x1024.size (by sl_kernel_rfl) y
theorem scoverB_3 (c : Dev nD) (t : Fin cfg0.N) (h0 : ¬t.val % 17 = 0) (h1 : ¬t.val % 17 = 16) (p : Outs F) (y : S256x1024.Idx) :
    ∃ pc ∈ (runB m c t h0 h1 p).2.2.2.2.1, y ∈ pc.1.set :=
  View.cover_of_tiledL (runB m c t h0 h1 p).2.2.2.2.1 S256x1024.size (by sl_kernel_rfl) y

theorem coverC_10 (c : Dev nD) (t : Fin cfg0.N) (h0 : ¬t.val % 17 = 0) (h1 : t.val % 17 = 16) (p : Outs F) (y : S256x1024.Idx) :
    ∃ pc ∈ (runC m c t h0 h1 p).1, y ∈ pc.1.set :=
  View.cover_of_tiledL (runC m c t h0 h1 p).1 S256x1024.size (by sl_kernel_rfl) y
theorem scoverC_0 (c : Dev nD) (t : Fin cfg0.N) (h0 : ¬t.val % 17 = 0) (h1 : t.val % 17 = 16) (p : Outs F) (y : S256x1024.Idx) :
    ∃ pc ∈ (runC m c t h0 h1 p).2.1, y ∈ pc.1.set :=
  View.cover_of_tiledL (runC m c t h0 h1 p).2.1 S256x1024.size (by sl_kernel_rfl) y
theorem scoverC_1 (c : Dev nD) (t : Fin cfg0.N) (h0 : ¬t.val % 17 = 0) (h1 : t.val % 17 = 16) (p : Outs F) (y : S256x1024.Idx) :
    ∃ pc ∈ (runC m c t h0 h1 p).2.2.1, y ∈ pc.1.set :=
  View.cover_of_tiledL (runC m c t h0 h1 p).2.2.1 S256x1024.size (by sl_kernel_rfl) y
theorem scoverC_2 (c : Dev nD) (t : Fin cfg0.N) (h0 : ¬t.val % 17 = 0) (h1 : t.val % 17 = 16) (p : Outs F) (y : S256x1024.Idx) :
    ∃ pc ∈ (runC m c t h0 h1 p).2.2.2.1, y ∈ pc.1.set :=
  View.cover_of_tiledL (runC m c t h0 h1 p).2.2.2.1 S256x1024.size (by sl_kernel_rfl) y
theorem scoverC_3 (c : Dev nD) (t : Fin cfg0.N) (h0 : ¬t.val % 17 = 0) (h1 : t.val % 17 = 16) (p : Outs F) (y : S256x1024.Idx) :
    ∃ pc ∈ (runC m c t h0 h1 p).2.2.2.2.1, y ∈ pc.1.set :=
  View.cover_of_tiledL (runC m c t h0 h1 p).2.2.2.2.1 S256x1024.size (by sl_kernel_rfl) y

/-! ## Point by point -/

/-- What the output's staging buffer and the four accumulators hold after the body at position `n`: the first-block
    run at the start of every row block (`n % 17 = 0`), else the middle- or last-block run over what position
    `n - 1` left. -/
def outsAt0 (c : Dev nD) : (n : ℕ) → n < cfg0.N → Outs F
  | 0, hn => outsOfA m c ⟨0, hn⟩ (Nat.zero_mod _) (by show ¬(0 % 17 = 16); decide)
  | n + 1, hn =>
    if h0 : (n + 1) % 17 = 0 then
      if h1 : (n + 1) % 17 = 16 then False.elim (by omega)
      else outsOfA m c ⟨n + 1, hn⟩ h0 h1
    else
      if h1 : (n + 1) % 17 = 16 then outsOfC m c ⟨n + 1, hn⟩ h0 h1 (outsAt0 c n (Nat.lt_of_succ_lt hn))
      else outsOfB m c ⟨n + 1, hn⟩ h0 h1 (outsAt0 c n (Nat.lt_of_succ_lt hn))

theorem outsAt0_A (c : Dev nD) (t : Fin cfg0.N) (h0 : t.val % 17 = 0) (h1 : ¬t.val % 17 = 16) :
    outsAt0 m c t.val t.isLt = outsOfA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 17 = 0) (h1 : ¬t.val % 17 = 16) :
    outsAt0 m c t.val t.isLt = outsOfB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 17 = 0) (h1 : t.val % 17 = 16) :
    outsAt0 m c t.val t.isLt = outsOfC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulators hold anything; before any later point each holds what the point before
    left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point: the inputs' buffers hold their blocks; the closed forms say which of the three runs the
    point is in; the invariant hands the body the accumulators at what the point before left (at anything at the first
    point) and takes them back at this point's contents; the output's buffer is handed back untouched away from the
    last column block and holds the stored block there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 136 := lt_of_lt_of_eq t.isLt (show cfg0.N = 136 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  by_cases h0 : t.val % 17 = 0
  · by_cases h1 : t.val % 17 = 16
    · exfalso; omega
    · rw [Dat.leavesExact_idle (dats m 0 c) 10 t (idleAt0_10 t (fun h => h1 ((hcond0_1 t).mp h))) (noFlush0_10 t (fun h => h1 ((hcond0_1 t).mp h)))]
      rw [outsAt0_A m c t h0 h1]
      unfold outsOfA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t h0 h1).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t h0 h1).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · have hz : t.val ≠ 0 := fun hz => h0 (by rw [hz])
    by_cases h1 : t.val % 17 = 16
    · rw [show (dats m 0 c).leavesExact 10 t = owns (c : Thread nD τ) (ms0_10 t) fullShare ((dats m 0 c).after 10 t) from by
        unfold Dat.leavesExact; rw [liveAt0_10 t ((hcond0_1 t).mpr h1)], after0_10]
      rw [outsAt0_C m c t h0 h1]
      unfold outsOfC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC m c t h0 h1 (outsAt0 m c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverC_10 m c t h0 h1 _)
    · rw [Dat.leavesExact_idle (dats m 0 c) 10 t (idleAt0_10 t (fun h => h1 ((hcond0_1 t).mp h))) (noFlush0_10 t (fun h => h1 ((hcond0_1 t).mp h)))]
      rw [outsAt0_B m c t h0 h1]
      unfold outsOfB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB m c t h0 h1 (outsAt0 m c (t.val - 1) (Nat.lt_of_le_of_lt (Nat.sub_le _ _) t.isLt))).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 136 := N_0; omega)

/-! ## The run and the frame -/

set_option backward.isDefEq.respectTransparency.types false in
/-- From any memory with zero counters every weakly fair execution of @main terminates, every array of the pipeline
    ends at what the proof data compute (an input as found; the output with each row block's last-point contents
    written back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Fr

end
-- ==== Proof.FrKernelIdeal.Kit.lean ====
import proofs.«150288_j28784870818476_1_alg».proof.Proof.Gen.KernelIdeal.Launch
import proofs.«150288_j28784870818476_1_alg».proof.Proof.Gen.KernelIdeal.Skeleton
import proofs.«150288_j28784870818476_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The LSTM cell's program around its one region

@main is one host line, the concatenation `z = [x | h_time | h_layer]` along the columns, followed by the
region: a grid of 8 row blocks by 17 column blocks of `z`. This module states what the region finds in every
buffer (the arguments as launched, `z` the concatenation), each window's block at a grid point, the two
conditions the body branches on in closed form (the first column block: `t % 17 = 0`; the last:
`t % 17 = 16`), where the one output window is idle, and how the frame claim follows from a run of the region
that leaves every input array as it found it.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the one host line. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes `z`'s buffer only: any other buffer is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)
theorem V_main_arg7 (c : Dev nD) : V m c main_arg7 = m ((c : Thread nD τ).loc main_arg7) := V_of_ne m c _ (by decide)
theorem V_main_arg8 (c : Dev nD) : V m c main_arg8 = m ((c : Thread nD τ).loc main_arg8) := V_of_ne m c _ (by decide)
theorem V_main_arg9 (c : Dev nD) : V m c main_arg9 = m ((c : Thread nD τ).loc main_arg9) := V_of_ne m c _ (by decide)
theorem V_main_arg10 (c : Dev nD) : V m c main_arg10 = m ((c : Thread nD τ).loc main_arg10) := V_of_ne m c _ (by decide)
theorem V_main_arg11 (c : Dev nD) : V m c main_arg11 = m ((c : Thread nD τ).loc main_arg11) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the fetch. One statement per input window, for any proof data whose arrays are
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run that ends with every array of the
    pipeline at what the data compute and every other unscoped buffer as the region found it ends with the twelve
    argument arrays as launched: `x`, `h_time`, `h_layer` bypass the region (the host line only read them); the old
    state, the four weight matrices and the four biases are input windows, whose arrays end as found. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 9).trans (((dats 0 c).arrAt_in 9 rfl _).trans ((hA c 9).trans (V_main_arg3 m c))),
      ((h c).1 1).trans (((dats 0 c).arrAt_in 1 rfl _).trans ((hA c 1).trans (V_main_arg4 m c))),
      ((h c).1 5).trans (((dats 0 c).arrAt_in 5 rfl _).trans ((hA c 5).trans (V_main_arg5 m c))),
      ((h c).1 2).trans (((dats 0 c).arrAt_in 2 rfl _).trans ((hA c 2).trans (V_main_arg6 m c))),
      ((h c).1 6).trans (((dats 0 c).arrAt_in 6 rfl _).trans ((hA c 6).trans (V_main_arg7 m c))),
      ((h c).1 3).trans (((dats 0 c).arrAt_in 3 rfl _).trans ((hA c 3).trans (V_main_arg8 m c))),
      ((h c).1 7).trans (((dats 0 c).arrAt_in 7 rfl _).trans ((hA c 7).trans (V_main_arg9 m c))),
      ((h c).1 4).trans (((dats 0 c).arrAt_in 4 rfl _).trans ((hA c 4).trans (V_main_arg10 m c))),
      ((h c).1 8).trans (((dats 0 c).arrAt_in 8 rfl _).trans ((hA c 8).trans (V_main_arg11 m c)))⟩) h

/-! ## The body's two branch conditions -/

/-- "This is the first column block" (`k = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 17). -/
theorem hcond0_0 : ∀ t : Fin cfg0.N, cond0_0 (grid0.coords t) ↔ t.val % 17 = 0 :=
  (by decide +kernel : ∀ t : Fin grid0.N, cond0_0 (grid0.coords t) ↔ t.val % 17 = 0)

/-- "This is the last column block" (`k = 16`). -/
abbrev cond0_1 (i : grid0.Coords) : Prop := k0_cond2 i = 1#1
/-- It holds at the points ≡ 16 (mod 17). -/
theorem hcond0_1 : ∀ t : Fin cfg0.N, cond0_1 (grid0.coords t) ↔ t.val % 17 = 16 :=
  (by decide +kernel : ∀ t : Fin grid0.N, cond0_1 (grid0.coords t) ↔ t.val % 17 = 16)

/-! ## Where the output window is idle -/

/-- Away from the last column block the body stores nothing into the output's staging buffer, -/
theorem idleAt0_10 : ∀ t : Fin cfg0.N, ¬cond0_1 (grid0.coords t) → cfg0.idle 10 (grid0.coords t) = true := by decide +kernel
/-- and the pipeline does not write it back there; -/
theorem noFlush0_10 : ∀ t : Fin cfg0.N, ¬cond0_1 (grid0.coords t) → (cfg0.win 10).flush t = false := by decide +kernel
/-- at the last column block it stores the new hidden state's block. -/
theorem liveAt0_10 : ∀ t : Fin cfg0.N, cond0_1 (grid0.coords t) → cfg0.idle 10 (grid0.coords t) = false := by decide +kernel

/-! ## The memrefs the body is called with -/

/-- One staging buffer of the output window, through which its contents are stated. -/
abbrev VO0_10 : View sig .tc .vmem S256x1024 .f32 := (Memref.whole cc0_stg10_0 : Memref sig .tc .vmem S256x1024 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
/-- The four accumulators (input, forget, output, state gate): whole scoped buffers of the kernel's own. -/
abbrev scM0_0 : Memref sig .tc .vmem S256x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S256x1024 .f32 := Memref.whole cc0_scratch3
/-- The accumulators as views: what each holds between points is stated through them. -/
abbrev VS0_0 : View sig .tc .vmem S256x1024 .f32 := scM0_0.view
abbrev VS0_1 : View sig .tc .vmem S256x1024 .f32 := scM0_1.view
abbrev VS0_2 : View sig .tc .vmem S256x1024 .f32 := scM0_2.view
abbrev VS0_3 : View sig .tc .vmem S256x1024 .f32 := scM0_3.view

/-- The region's class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.FrKernelIdeal.RunB.lean ====
import proofs.«150288_j28784870818476_1_alg».proof.Proof.FrKernelIdeal.Kit

/-!
# The body's run at a middle column block
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE column block (neither the first nor the last): the four accumulators are each loaded, added the
    product of the point's block of `z` with the gate's weight block, and stored whole; the output's staging buffer
    is not touched. Given the input buffers at their contents, the output's at contents handed back untouched, and
    the accumulators at what the point before left, the body runs to a continuation that holds the inputs as they
    were and each accumulator with its stored pieces written; the pieces are the witnesses the run finds. -/
noncomputable def kernelRun0_B (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : ¬cond0_0 i) (hc1 : ¬cond0_1 i)
    (x0 : Vec F S256x256 .f32) (x1 x2 x3 x4 : Vec F S1024x256 .f32) (x5 x6 x7 x8 : Vec F S1024 .f32) (x9 : Vec F S256x1024 .f32)
    (xs0 xs1 xs2 xs3 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (xi10 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
            ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, fun xi10 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.KernelIdeal.Fr

end
-- ==== Proof.FrKernelIdeal.RunA.lean ====
import proofs.«150288_j28784870818476_1_alg».proof.Proof.FrKernelIdeal.RunB

/-!
# The body's run at the first column block
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The FIRST column block of a row block: each accumulator is first stored whole with zeros, then loaded, added the
    product of the point's block of `z` with the gate's weight block, and stored whole; the output's staging buffer
    is not touched. The accumulators may hold anything on entry. The body runs to a continuation that holds the
    inputs as they were, the output's buffer untouched and each accumulator with its two stored pieces written. -/
noncomputable def kernelRun0_A (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : cond0_0 i) (hc1 : ¬cond0_1 i)
    (x0 : Vec F S256x256 .f32) (x1 x2 x3 x4 : Vec F S1024x256 .f32) (x5 x6 x7 x8 : Vec F S1024 .f32) (x9 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (xi10 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, fun xi10 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.KernelIdeal.Fr

end
-- ==== Proof.FrKernelIdeal.RunC.lean ====
import proofs.«150288_j28784870818476_1_alg».proof.Proof.FrKernelIdeal.RunA

/-!
# The body's run at the last column block
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The LAST column block of a row block: the accumulators are updated as at a middle block, then loaded once more,
    each added its gate's bias, and the new hidden state `σ(o) · tanh(σ(f) · c_old + σ(i) · tanh(s))` is stored
    whole into the output's staging buffer, which may hold anything on entry. The body runs to a continuation that
    holds the inputs as they were, and the output's buffer and each accumulator with their stored pieces written. -/
noncomputable def kernelRun0_C (c : Dev nD) (i : grid0.Coords) (arg2 : Memref sig .tc .vmem S256x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (hc0 : ¬cond0_0 i) (hc1 : cond0_1 i)
    (x0 : Vec F S256x256 .f32) (x1 x2 x3 x4 : Vec F S1024x256 .f32) (x5 x6 x7 x8 : Vec F S1024 .f32) (x9 : Vec F S256x1024 .f32)
    (xs0 xs1 xs2 xs3 : Vec F S256x1024 .f32) :
    Σ' (L10 : List (View.Piece (Elt F) S256x1024 .f32)) (LS0 : List (View.Piece (Elt F) S256x1024 .f32)) (LS1 : List (View.Piece (Elt F) S256x1024 .f32)) (LS2 : List (View.Piece (Elt F) S256x1024 .f32)), { LS3 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
            ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Fr

end
-- ==== Proof.FrKernelIdeal.Frame.lean ====
import proofs.«150288_j28784870818476_1_alg».proof.Proof.FrKernelIdeal.RunC

/-!
# What the accumulators and the output hold point by point; the proof data; the frame
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The output block's and the four accumulators' contents, in that order. -/
abbrev Outs (F : FTy → Type) [FloatOps F] : Type :=
  Vec F S256x1024 .f32 × Vec F S256x1024 .f32 × Vec F S256x1024 .f32 × Vec F S256x1024 .f32 × Vec F S256x1024 .f32

/-- The first-block run at point `t`, on the point's staging buffers and input blocks. -/
abbrev runA (c : Dev nD) (t : Fin cfg0.N) (h0 : t.val % 17 = 0) (h1 : ¬t.val % 17 = 16) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
/-- The middle-block run at point `t`, over what the point before left in the accumulators. -/
abbrev runB (c : Dev nD) (t : Fin cfg0.N) (h0 : ¬t.val % 17 = 0) (h1 : ¬t.val % 17 = 16) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2
/-- The last-block run at point `t`, over what the point before left in the accumulators. -/
abbrev runC (c : Dev nD) (t : Fin cfg0.N) (h0 : ¬t.val % 17 = 0) (h1 : t.val % 17 = 16) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2

/-- What the first-block run leaves: the output's buffer is not stored into (a placeholder nothing consults), each
    accumulator holds its stored pieces read back. -/
def outsOfA (c : Dev nD) (t : Fin cfg0.N) (h0 : t.val % 17 = 0) (h1 : ¬t.val % 17 = 16) : Outs F :=
  (VO0_10.read (Elt F) (VO0_10.writes (Elt F) VO0_10.junk (runA m c t h0 h1).1),
   VS0_0.read (Elt F) (VS0_0.writes (Elt F) VS0_0.junk (runA m c t h0 h1).2.1),
   VS0_1.read (Elt F) (VS0_1.writes (Elt F) VS0_1.junk (runA m c t h0 h1).2.2.1),
   VS0_2.read (Elt F) (VS0_2.writes (Elt F) VS0_2.junk (runA m c t h0 h1).2.2.2.1),
   VS0_3.read (Elt F) (VS0_3.writes (Elt F) VS0_3.junk (runA m c t h0 h1).2.2.2.2.1))
/-- What the middle-block run leaves. -/
def outsOfB (c : Dev nD) (t : Fin cfg0.N) (h0 : ¬t.val % 17 = 0) (h1 : ¬t.val % 17 = 16) (p : Outs F) : Outs F :=
  (VO0_10.read (Elt F) (VO0_10.writes (Elt F) VO0_10.junk (runB m c t h0 h1 p).1),
   VS0_0.read (Elt F) (VS0_0.writes (Elt F) VS0_0.junk (runB m c t h0 h1 p).2.1),
   VS0_1.read (Elt F) (VS0_1.writes (Elt F) VS0_1.junk (runB m c t h0 h1 p).2.2.1),
   VS0_2.read (Elt F) (VS0_2.writes (Elt F) VS0_2.junk (runB m c t h0 h1 p).2.2.2.1),
   VS0_3.read (Elt F) (VS0_3.writes (Elt F) VS0_3.junk (runB m c t h0 h1 p).2.2.2.2.1))
/-- What the last-block run leaves: the output's buffer holds its stored piece, the new hidden state's block. -/
def outsOfC (c : Dev nD) (t : Fin cfg0.N) (h0 : ¬t.val % 17 = 0) (h1 : t.val % 17 = 16) (p : Outs F) : Outs F :=
  (VO0_10.read (Elt F) (VO0_10.writes (Elt F) VO0_10.junk (runC m c t h0 h1 p).1),
   VS0_0.read (Elt F) (VS0_0.writes (Elt F) VS0_0.junk (runC m c t h0 h1 p).2.1),
   VS0_1.read (Elt F) (VS0_1.writes (Elt F) VS0_1.junk (runC m c t h0 h1 p).2.2.1),
   VS0_2.read (Elt F) (VS0_2.writes (Elt F) VS0_2.junk (runC m c t h0 h1 p).2.2.2.1),
   VS0_3.read (Elt F) (VS0_3.writes (Elt F) VS0_3.junk (runC m c t h0 h1 p).2.2.2.2.1))

/-! ## The stored pieces cover their buffers -/

theorem scoverA_0 (c : Dev nD) (t : Fin cfg0.N) (h0 : t.val % 17 = 0) (h1 : ¬t.val % 17 = 16) (y : S256x1024.Idx) :
    ∃ pc ∈ (runA m c t h0 h1).2.1, y ∈ pc.1.set :=
  View.cover_of_tiledL (runA m c t h0 h1).2.1 S256x1024.size (by sl_kernel_rfl) y
theorem scoverA_1 (c : Dev nD) (t : Fin cfg0.N) (h0 : t.val % 17 = 0) (h1 : ¬t.val % 17 = 16) (y : S256x1024.Idx) :
    ∃ pc ∈ (runA m c t h0 h1).2.2.1, y ∈ pc.1.set :=
  View.cover_of_tiledL (runA m c t h0 h1).2.2.1 S256x1024.size (by sl_kernel_rfl) y
theorem scoverA_2 (c : Dev nD) (t : Fin cfg0.N) (h0 : t.val % 17 = 0) (h1 : ¬t.val % 17 = 16) (y : S256x1024.Idx) :
    ∃ pc ∈ (runA m c t h0 h1).2.2.2.1, y ∈ pc.1.set :=
  View.cover_of_tiledL (runA m c t h0 h1).2.2.2.1 S256x1024.size (by sl_kernel_rfl) y
theorem scoverA_3 (c : Dev nD) (t : Fin cfg0.N) (h0 : t.val % 17 = 0) (h1 : ¬t.val % 17 = 16) (y : S256x1024.Idx) :
    ∃ pc ∈ (runA m c t h0 h1).2.2.2.2.1, y ∈ pc.1.set :=
  View.cover_of_tiledL (runA m c t h0 h1).2.2.2.2.1 S256x1024.size (by sl_kernel_rfl) y

theorem scoverB_0 (c : Dev nD) (t : Fin cfg0.N) (h0 : ¬t.val % 17 = 0) (h1 : ¬t.val % 17 = 16) (p : Outs F) (y : S256x1024.Idx) :
    ∃ pc ∈ (runB m c t h0 h1 p).2.1, y ∈ pc.1.set :=
  View.cover_of_tiledL (runB m c t h0 h1 p).2.1 S256x1024.size (by sl_kernel_rfl) y
theorem scoverB_1 (c : Dev nD) (t : Fin cfg0.N) (h0 : ¬t.val % 17 = 0) (h1 : ¬t.val % 17 = 16) (p : Outs F) (y : S256x1024.Idx) :
    ∃ pc ∈ (runB m c t h0 h1 p).2.2.1, y ∈ pc.1.set :=
  View.cover_of_tiledL (runB m c t h0 h1 p).2.2.1 S256x1024.size (by sl_kernel_rfl) y
theorem scoverB_2 (c : Dev nD) (t : Fin cfg0.N) (h0 : ¬t.val % 17 = 0) (h1 : ¬t.val % 17 = 16) (p : Outs F) (y : S256x1024.Idx) :
    ∃ pc ∈ (runB m c t h0 h1 p).2.2.2.1, y ∈ pc.1.set :=
  View.cover_of_tiledL (runB m c t h0 h1 p).2.2.2.1 S256x1024.size (by sl_kernel_rfl) y
theorem scoverB_3 (c : Dev nD) (t : Fin cfg0.N) (h0 : ¬t.val % 17 = 0) (h1 : ¬t.val % 17 = 16) (p : Outs F) (y : S256x1024.Idx) :
    ∃ pc ∈ (runB m c t h0 h1 p).2.2.2.2.1, y ∈ pc.1.set :=
  View.cover_of_tiledL (runB m c t h0 h1 p).2.2.2.2.1 S256x1024.size (by sl_kernel_rfl) y

theorem coverC_10 (c : Dev nD) (t : Fin cfg0.N) (h0 : ¬t.val % 17 = 0) (h1 : t.val % 17 = 16) (p : Outs F) (y : S256x1024.Idx) :
    ∃ pc ∈ (runC m c t h0 h1 p).1, y ∈ pc.1.set :=
  View.cover_of_tiledL (runC m c t h0 h1 p).1 S256x1024.size (by sl_kernel_rfl) y
theorem scoverC_0 (c : Dev nD) (t : Fin cfg0.N) (h0 : ¬t.val % 17 = 0) (h1 : t.val % 17 = 16) (p : Outs F) (y : S256x1024.Idx) :
    ∃ pc ∈ (runC m c t h0 h1 p).2.1, y ∈ pc.1.set :=
  View.cover_of_tiledL (runC m c t h0 h1 p).2.1 S256x1024.size (by sl_kernel_rfl) y
theorem scoverC_1 (c : Dev nD) (t : Fin cfg0.N) (h0 : ¬t.val % 17 = 0) (h1 : t.val % 17 = 16) (p : Outs F) (y : S256x1024.Idx) :
    ∃ pc ∈ (runC m c t h0 h1 p).2.2.1, y ∈ pc.1.set :=
  View.cover_of_tiledL (runC m c t h0 h1 p).2.2.1 S256x1024.size (by sl_kernel_rfl) y
theorem scoverC_2 (c : Dev nD) (t : Fin cfg0.N) (h0 : ¬t.val % 17 = 0) (h1 : t.val % 17 = 16) (p : Outs F) (y : S256x1024.Idx) :
    ∃ pc ∈ (runC m c t h0 h1 p).2.2.2.1, y ∈ pc.1.set :=
  View.cover_of_tiledL (runC m c t h0 h1 p).2.2.2.1 S256x1024.size (by sl_kernel_rfl) y
theorem scoverC_3 (c : Dev nD) (t : Fin cfg0.N) (h0 : ¬t.val % 17 = 0) (h1 : t.val % 17 = 16) (p : Outs F) (y : S256x1024.Idx) :
    ∃ pc ∈ (runC m c t h0 h1 p).2.2.2.2.1, y ∈ pc.1.set :=
  View.cover_of_tiledL (runC m c t h0 h1 p).2.2.2.2.1 S256x1024.size (by sl_kernel_rfl) y

/-! ## Point by point -/

/-- What the output's staging buffer and the four accumulators hold after the body at position `n`: the first-block
    run at the start of every row block (`n % 17 = 0`), else the middle- or last-block run over what position
    `n - 1` left. -/
def outsAt0 (c : Dev nD) : (n : ℕ) → n < cfg0.N → Outs F
  | 0, hn => outsOfA m c ⟨0, hn⟩ (Nat.zero_mod _) (by show ¬(0 % 17 = 16); decide)
  | n + 1, hn =>
    if h0 : (n + 1) % 17 = 0 then
      if h1 : (n + 1) % 17 = 16 then False.elim (by omega)
      else outsOfA m c ⟨n + 1, hn⟩ h0 h1
    else
      if h1 : (n + 1) % 17 = 16 then outsOfC m c ⟨n + 1, hn⟩ h0 h1 (outsAt0 c n (Nat.lt_of_succ_lt hn))
      else outsOfB m c ⟨n + 1, hn⟩ h0 h1 (outsAt0 c n (Nat.lt_of_succ_lt hn))

theorem outsAt0_A (c : Dev nD) (t : Fin cfg0.N) (h0 : t.val % 17 = 0) (h1 : ¬t.val % 17 = 16) :
    outsAt0 m c t.val t.isLt = outsOfA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 17 = 0) (h1 : ¬t.val % 17 = 16) :
    outsAt0 m c t.val t.isLt = outsOfB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 17 = 0) (h1 : t.val % 17 = 16) :
    outsAt0 m c t.val t.isLt = outsOfC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulators hold anything; before any later point each holds what the point before
    left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point: the inputs' buffers hold their blocks; the closed forms say which of the three runs the
    point is in; the invariant hands the body the accumulators at what the point before left (at anything at the first
    point) and takes them back at this point's contents; the output's buffer is handed back untouched away from the
    last column block and holds the stored block there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 136 := lt_of_lt_of_eq t.isLt (show cfg0.N = 136 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  by_cases h0 : t.val % 17 = 0
  · by_cases h1 : t.val % 17 = 16
    · exfalso; omega
    · rw [Dat.leavesExact_idle (dats m 0 c) 10 t (idleAt0_10 t (fun h => h1 ((hcond0_1 t).mp h))) (noFlush0_10 t (fun h => h1 ((hcond0_1 t).mp h)))]
      rw [outsAt0_A m c t h0 h1]
      unfold outsOfA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t h0 h1).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA m c t h0 h1).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · have hz : t.val ≠ 0 := fun hz => h0 (by rw [hz])
    by_cases h1 : t.val % 17 = 16
    · rw [show (dats m 0 c).leavesExact 10 t = owns (c : Thread nD τ) (ms0_10 t) fullShare ((dats m 0 c).after 10 t) from by
        unfold Dat.leavesExact; rw [liveAt0_10 t ((hcond0_1 t).mpr h1)], after0_10]
      rw [outsAt0_C m c t h0 h1]
      unfold outsOfC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC m c t h0 h1 (outsAt0 m c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverC_10 m c t h0 h1 _)
    · rw [Dat.leavesExact_idle (dats m 0 c) 10 t (idleAt0_10 t (fun h => h1 ((hcond0_1 t).mp h))) (noFlush0_10 t (fun h => h1 ((hcond0_1 t).mp h)))]
      rw [outsAt0_B m c t h0 h1]
      unfold outsOfB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB m c t h0 h1 (outsAt0 m c (t.val - 1) (Nat.lt_of_le_of_lt (Nat.sub_le _ _) t.isLt))).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 136 := N_0; omega)

/-! ## The run and the frame -/

set_option backward.isDefEq.respectTransparency.types false in
/-- From any memory with zero counters every weakly fair execution of @main terminates, every array of the pipeline
    ends at what the proof data compute (an input as found; the output with each row block's last-point contents
    written back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Fr

end
-- ==== Proof.Pieces.lean ====
import proofs.«150288_j28784870818476_1_alg».proof.Proof.FrKernelIdeal.Frame
import Idealize.ShloMosaic.Lib.Tactic
import Idealize.ShloMosaic.Lib.Pipeline.Value

/-!
# What each of the kernel's three runs leaves in the accumulators and in the output block

The kernel walks each row block of `z` through its 17 column blocks. At the first column block every gate's
accumulator is zeroed and then added the product of the block of `z` with the gate's weight block; at every later
column block it is added that block's product; at the last column block, after the update, each accumulator is read
back, its gate's bias is added along every row, and the cell's update of the four results and the old state's block
is stored into the output block. Every store writes its buffer whole, so a buffer's final contents are the payload
of the last store into it. This module reads those payloads off the three runs.
-/

set_option maxRecDepth 16384

noncomputable section

namespace Cert.KernelIdeal.Pc

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

section Generic

variable (c : Dev nD) (i : grid0.Coords)
  (arg2 : Memref sig .tc .vmem S256x256 .f32) (harg2 : arg2.IsWhole)
  (arg3 : Memref sig .tc .vmem S1024x256 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1024 .f32) (harg7 : arg7.IsWhole)
  (arg8 : Memref sig .tc .vmem S1024 .f32) (harg8 : arg8.IsWhole)
  (arg9 : Memref sig .tc .vmem S1024 .f32) (harg9 : arg9.IsWhole)
  (arg10 : Memref sig .tc .vmem S1024 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S256x1024 .f32) (harg16 : arg16.IsWhole)
  (x0 : Vec F S256x256 .f32) (x1 x2 x3 x4 : Vec F S1024x256 .f32) (x5 x6 x7 x8 : Vec F S1024 .f32)
  (x9 : Vec F S256x1024 .f32) (xs0 xs1 xs2 xs3 : Vec F S256x1024 .f32)

/-! ## The pieces of each run, over any buffers and contents

The accumulators and the output's buffer are each written whole, so what a buffer holds after a run is the payload
of the last store into it, whatever view it is read through and whatever it held before. -/

/-- First column block, input gate: the accumulator is zeroed, read back, and ends at zero plus the product of the
    block of `z` with the gate's weight block. -/
theorem genA_0 (hc0 : cond0_0 i) (hc1 : ¬cond0_1 i) (v : View sig .tc .vmem S256x1024 .f32) (f : v.ty.Contents (Elt F)) :
    v.read (Elt F) (v.writes (Elt F) f (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1)
      = k0_pay8 x0 k0_pay3 x1 := by
  rw [View.read_writes_eq_canon _ _ _ (View.cover_of_tiledL _ S256x1024.size (by sl_kernel_rfl))]
  unfold kernelRun0_A
  dsimp only
  sl_unfold_words
  rw [View.canon_cons_unit_zero (S := S256x1024) hz, View.readCov_unit_zero (S := S256x1024) _ hz]
  simp only [View.readAt_eq_ld, harg2.read_unread, harg3.read_unread, View.ld_unit_zero (S := S256x256) hz,
    View.ld_unit_zero (S := S1024x256) hz]

/-- First column block, forget gate. -/
theorem genA_1 (hc0 : cond0_0 i) (hc1 : ¬cond0_1 i) (v : View sig .tc .vmem S256x1024 .f32) (f : v.ty.Contents (Elt F)) :
    v.read (Elt F) (v.writes (Elt F) f (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.1)
      = k0_pay9 x0 k0_pay4 x2 := by
  rw [View.read_writes_eq_canon _ _ _ (View.cover_of_tiledL _ S256x1024.size (by sl_kernel_rfl))]
  unfold kernelRun0_A
  dsimp only
  sl_unfold_words
  rw [View.canon_cons_unit_zero (S := S256x1024) hz, View.readCov_unit_zero (S := S256x1024) _ hz]
  simp only [View.readAt_eq_ld, harg2.read_unread, harg4.read_unread, View.ld_unit_zero (S := S256x256) hz,
    View.ld_unit_zero (S := S1024x256) hz]

/-- First column block, output gate. -/
theorem genA_2 (hc0 : cond0_0 i) (hc1 : ¬cond0_1 i) (v : View sig .tc .vmem S256x1024 .f32) (f : v.ty.Contents (Elt F)) :
    v.read (Elt F) (v.writes (Elt F) f (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.2.1)
      = k0_pay10 x0 k0_pay5 x3 := by
  rw [View.read_writes_eq_canon _ _ _ (View.cover_of_tiledL _ S256x1024.size (by sl_kernel_rfl))]
  unfold kernelRun0_A
  dsimp only
  sl_unfold_words
  rw [View.canon_cons_unit_zero (S := S256x1024) hz, View.readCov_unit_zero (S := S256x1024) _ hz]
  simp only [View.readAt_eq_ld, harg2.read_unread, harg5.read_unread, View.ld_unit_zero (S := S256x256) hz,
    View.ld_unit_zero (S := S1024x256) hz]

/-- First column block, state gate. -/
theorem genA_3 (hc0 : cond0_0 i) (hc1 : ¬cond0_1 i) (v : View sig .tc .vmem S256x1024 .f32) (f : v.ty.Contents (Elt F)) :
    v.read (Elt F) (v.writes (Elt F) f (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.2.2.1)
      = k0_pay1 (k0_pay7 x0) k0_pay6 x4 := by
  rw [View.read_writes_eq_canon _ _ _ (View.cover_of_tiledL _ S256x1024.size (by sl_kernel_rfl))]
  unfold kernelRun0_A
  dsimp only
  sl_unfold_words
  rw [View.canon_cons_unit_zero (S := S256x1024) hz, View.readCov_unit_zero (S := S256x1024) _ hz]
  simp only [View.readAt_eq_ld, harg2.read_unread, harg6.read_unread, View.ld_unit_zero (S := S256x256) hz,
    View.ld_unit_zero (S := S1024x256) hz]

/-- Middle column block, input gate: the accumulator ends at its previous contents plus the product of the block of
    `z` with the gate's weight block. -/
theorem genB_0 (hc0 : ¬cond0_0 i) (hc1 : ¬cond0_1 i) (v : View sig .tc .vmem S256x1024 .f32) (f : v.ty.Contents (Elt F)) :
    v.read (Elt F) (v.writes (Elt F) f (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.1)
      = k0_pay8 x0 xs0 x1 := by
  rw [View.read_writes_eq_canon _ _ _ (View.cover_of_tiledL _ S256x1024.size (by sl_kernel_rfl))]
  unfold kernelRun0_B
  dsimp only
  sl_unfold_words
  rw [View.canon_unit_zero hz]
  simp only [View.readAt_eq_ld, harg2.read_unread, harg3.read_unread, harg13.read_unread,
    View.ld_unit_zero (S := S256x256) hz, View.ld_unit_zero (S := S1024x256) hz, View.ld_unit_zero (S := S256x1024) hz]

/-- Middle column block, forget gate. -/
theorem genB_1 (hc0 : ¬cond0_0 i) (hc1 : ¬cond0_1 i) (v : View sig .tc .vmem S256x1024 .f32) (f : v.ty.Contents (Elt F)) :
    v.read (Elt F) (v.writes (Elt F) f (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.1)
      = k0_pay9 x0 xs1 x2 := by
  rw [View.read_writes_eq_canon _ _ _ (View.cover_of_tiledL _ S256x1024.size (by sl_kernel_rfl))]
  unfold kernelRun0_B
  dsimp only
  sl_unfold_words
  rw [View.canon_unit_zero hz]
  simp only [View.readAt_eq_ld, harg2.read_unread, harg4.read_unread, harg14.read_unread,
    View.ld_unit_zero (S := S256x256) hz, View.ld_unit_zero (S := S1024x256) hz, View.ld_unit_zero (S := S256x1024) hz]

/-- Middle column block, output gate. -/
theorem genB_2 (hc0 : ¬cond0_0 i) (hc1 : ¬cond0_1 i) (v : View sig .tc .vmem S256x1024 .f32) (f : v.ty.Contents (Elt F)) :
    v.read (Elt F) (v.writes (Elt F) f (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.2.1)
      = k0_pay10 x0 xs2 x3 := by
  rw [View.read_writes_eq_canon _ _ _ (View.cover_of_tiledL _ S256x1024.size (by sl_kernel_rfl))]
  unfold kernelRun0_B
  dsimp only
  sl_unfold_words
  rw [View.canon_unit_zero hz]
  simp only [View.readAt_eq_ld, harg2.read_unread, harg5.read_unread, harg15.read_unread,
    View.ld_unit_zero (S := S256x256) hz, View.ld_unit_zero (S := S1024x256) hz, View.ld_unit_zero (S := S256x1024) hz]

/-- Middle column block, state gate. -/
theorem genB_3 (hc0 : ¬cond0_0 i) (hc1 : ¬cond0_1 i) (v : View sig .tc .vmem S256x1024 .f32) (f : v.ty.Contents (Elt F)) :
    v.read (Elt F) (v.writes (Elt F) f (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.2.2.1)
      = k0_pay1 (k0_pay7 x0) xs3 x4 := by
  rw [View.read_writes_eq_canon _ _ _ (View.cover_of_tiledL _ S256x1024.size (by sl_kernel_rfl))]
  unfold kernelRun0_B
  dsimp only
  sl_unfold_words
  rw [View.canon_unit_zero hz]
  simp only [View.readAt_eq_ld, harg2.read_unread, harg6.read_unread, harg16.read_unread,
    View.ld_unit_zero (S := S256x256) hz, View.ld_unit_zero (S := S1024x256) hz, View.ld_unit_zero (S := S256x1024) hz]

/-- Last column block, input gate: as at a middle block. -/
theorem genC_0 (hc0 : ¬cond0_0 i) (hc1 : cond0_1 i) (v : View sig .tc .vmem S256x1024 .f32) (f : v.ty.Contents (Elt F)) :
    v.read (Elt F) (v.writes (Elt F) f (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.1)
      = k0_pay8 x0 xs0 x1 := by
  rw [View.read_writes_eq_canon _ _ _ (View.cover_of_tiledL _ S256x1024.size (by sl_kernel_rfl))]
  unfold kernelRun0_C
  dsimp only
  sl_unfold_words
  rw [View.canon_unit_zero hz]
  simp only [View.readAt_eq_ld, harg2.read_unread, harg3.read_unread, harg13.read_unread,
    View.ld_unit_zero (S := S256x256) hz, View.ld_unit_zero (S := S1024x256) hz, View.ld_unit_zero (S := S256x1024) hz]

/-- Last column block, forget gate. -/
theorem genC_1 (hc0 : ¬cond0_0 i) (hc1 : cond0_1 i) (v : View sig .tc .vmem S256x1024 .f32) (f : v.ty.Contents (Elt F)) :
    v.read (Elt F) (v.writes (Elt F) f (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.1)
      = k0_pay9 x0 xs1 x2 := by
  rw [View.read_writes_eq_canon _ _ _ (View.cover_of_tiledL _ S256x1024.size (by sl_kernel_rfl))]
  unfold kernelRun0_C
  dsimp only
  sl_unfold_words
  rw [View.canon_unit_zero hz]
  simp only [View.readAt_eq_ld, harg2.read_unread, harg4.read_unread, harg14.read_unread,
    View.ld_unit_zero (S := S256x256) hz, View.ld_unit_zero (S := S1024x256) hz, View.ld_unit_zero (S := S256x1024) hz]

/-- Last column block, output gate. -/
theorem genC_2 (hc0 : ¬cond0_0 i) (hc1 : cond0_1 i) (v : View sig .tc .vmem S256x1024 .f32) (f : v.ty.Contents (Elt F)) :
    v.read (Elt F) (v.writes (Elt F) f (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.2.1)
      = k0_pay10 x0 xs2 x3 := by
  rw [View.read_writes_eq_canon _ _ _ (View.cover_of_tiledL _ S256x1024.size (by sl_kernel_rfl))]
  unfold kernelRun0_C
  dsimp only
  sl_unfold_words
  rw [View.canon_unit_zero hz]
  simp only [View.readAt_eq_ld, harg2.read_unread, harg5.read_unread, harg15.read_unread,
    View.ld_unit_zero (S := S256x256) hz, View.ld_unit_zero (S := S1024x256) hz, View.ld_unit_zero (S := S256x1024) hz]

/-- Last column block, state gate. -/
theorem genC_3 (hc0 : ¬cond0_0 i) (hc1 : cond0_1 i) (v : View sig .tc .vmem S256x1024 .f32) (f : v.ty.Contents (Elt F)) :
    v.read (Elt F) (v.writes (Elt F) f (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).2.2.2.2.1)
      = k0_pay1 (k0_pay7 x0) xs3 x4 := by
  rw [View.read_writes_eq_canon _ _ _ (View.cover_of_tiledL _ S256x1024.size (by sl_kernel_rfl))]
  unfold kernelRun0_C
  dsimp only
  sl_unfold_words
  rw [View.canon_unit_zero hz]
  simp only [View.readAt_eq_ld, harg2.read_unread, harg6.read_unread, harg16.read_unread,
    View.ld_unit_zero (S := S256x256) hz, View.ld_unit_zero (S := S1024x256) hz, View.ld_unit_zero (S := S256x1024) hz]

/-- Last column block, the output: the four updated accumulators are read back, each is added its gate's bias along
    every row, and the cell's update of them and the old state's block is stored. -/
theorem genC_out (hc0 : ¬cond0_0 i) (hc1 : cond0_1 i) (v : View sig .tc .vmem S256x1024 .f32) (f : v.ty.Contents (Elt F)) :
    v.read (Elt F) (v.writes (Elt F) f (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3).1)
      = k0_pay2 (k0_pay8 x0 xs0 x1) x5 (k0_pay9 x0 xs1 x2) x6 (k0_pay10 x0 xs2 x3) x7 (k0_pay1 (k0_pay7 x0) xs3 x4) x8 x9 := by
  rw [View.read_writes_eq_canon _ _ _ (View.cover_of_tiledL _ S256x1024.size (by sl_kernel_rfl))]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.readCov_unit_zero (S := S256x1024) _ hz,
    View.ld_unit_zero (S := S256x256) hz, View.ld_unit_zero (S := S1024x256) hz, View.ld_unit_zero (S := S256x1024) hz,
    View.ld_unit_zero (S := S1024) hz1]

end Generic

/-! ## The pieces at a grid point

At point `t` the body is run on the point's staging buffers, which hold the windows' blocks: the block of `z`
(window 0), the four gates' weight blocks (windows 1 to 4), their biases (5 to 8) and the old state's block (9). -/

variable (m : (ℓ : Loc nD τ sig) → Buf (Elt F) ℓ)

/-- At the first column block the input-gate accumulator ends at zero plus the product of the block of `z` with the
    input gate's weight block. -/
theorem pieceA_0 (c : Dev nD) (t : Fin cfg0.N) (h0 : t.val % 17 = 0) (h1 : ¬t.val % 17 = 16) :
    (outsOfA m c t h0 h1).2.1 = k0_pay8 (iblk m c 0 t) k0_pay3 (iblk m c 1 t) := by
  unfold outsOfA
  dsimp only
  exact genA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) VS0_0 VS0_0.junk

/-- At the first column block the forget-gate accumulator ends at zero plus its product. -/
theorem pieceA_1 (c : Dev nD) (t : Fin cfg0.N) (h0 : t.val % 17 = 0) (h1 : ¬t.val % 17 = 16) :
    (outsOfA m c t h0 h1).2.2.1 = k0_pay9 (iblk m c 0 t) k0_pay4 (iblk m c 2 t) := by
  unfold outsOfA
  dsimp only
  exact genA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) VS0_1 VS0_1.junk

/-- At the first column block the output-gate accumulator ends at zero plus its product. -/
theorem pieceA_2 (c : Dev nD) (t : Fin cfg0.N) (h0 : t.val % 17 = 0) (h1 : ¬t.val % 17 = 16) :
    (outsOfA m c t h0 h1).2.2.2.1 = k0_pay10 (iblk m c 0 t) k0_pay5 (iblk m c 3 t) := by
  unfold outsOfA
  dsimp only
  exact genA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) VS0_2 VS0_2.junk

/-- At the first column block the state-gate accumulator ends at zero plus its product. -/
theorem pieceA_3 (c : Dev nD) (t : Fin cfg0.N) (h0 : t.val % 17 = 0) (h1 : ¬t.val % 17 = 16) :
    (outsOfA m c t h0 h1).2.2.2.2 = k0_pay1 (k0_pay7 (iblk m c 0 t)) k0_pay6 (iblk m c 4 t) := by
  unfold outsOfA
  dsimp only
  exact genA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) VS0_3 VS0_3.junk

/-- At a middle column block the input-gate accumulator ends at its previous contents plus the product of the block
    of `z` with the input gate's weight block. -/
theorem pieceB_0 (c : Dev nD) (t : Fin cfg0.N) (h0 : ¬t.val % 17 = 0) (h1 : ¬t.val % 17 = 16) (p : Outs F) :
    (outsOfB m c t h0 h1 p).2.1 = k0_pay8 (iblk m c 0 t) p.2.1 (iblk m c 1 t) := by
  unfold outsOfB
  dsimp only
  exact genB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) (fun h => h1 ((hcond0_1 t).mp h)) VS0_0 VS0_0.junk

/-- At a middle column block the forget-gate accumulator ends at its previous contents plus its product. -/
theorem pieceB_1 (c : Dev nD) (t : Fin cfg0.N) (h0 : ¬t.val % 17 = 0) (h1 : ¬t.val % 17 = 16) (p : Outs F) :
    (outsOfB m c t h0 h1 p).2.2.1 = k0_pay9 (iblk m c 0 t) p.2.2.1 (iblk m c 2 t) := by
  unfold outsOfB
  dsimp only
  exact genB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) (fun h => h1 ((hcond0_1 t).mp h)) VS0_1 VS0_1.junk

/-- At a middle column block the output-gate accumulator ends at its previous contents plus its product. -/
theorem pieceB_2 (c : Dev nD) (t : Fin cfg0.N) (h0 : ¬t.val % 17 = 0) (h1 : ¬t.val % 17 = 16) (p : Outs F) :
    (outsOfB m c t h0 h1 p).2.2.2.1 = k0_pay10 (iblk m c 0 t) p.2.2.2.1 (iblk m c 3 t) := by
  unfold outsOfB
  dsimp only
  exact genB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) (fun h => h1 ((hcond0_1 t).mp h)) VS0_2 VS0_2.junk

/-- At a middle column block the state-gate accumulator ends at its previous contents plus its product. -/
theorem pieceB_3 (c : Dev nD) (t : Fin cfg0.N) (h0 : ¬t.val % 17 = 0) (h1 : ¬t.val % 17 = 16) (p : Outs F) :
    (outsOfB m c t h0 h1 p).2.2.2.2 = k0_pay1 (k0_pay7 (iblk m c 0 t)) p.2.2.2.2 (iblk m c 4 t) := by
  unfold outsOfB
  dsimp only
  exact genB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) (fun h => h1 ((hcond0_1 t).mp h)) VS0_3 VS0_3.junk

/-- At the last column block the input-gate accumulator is updated as at a middle block. -/
theorem pieceC_0 (c : Dev nD) (t : Fin cfg0.N) (h0 : ¬t.val % 17 = 0) (h1 : t.val % 17 = 16) (p : Outs F) :
    (outsOfC m c t h0 h1 p).2.1 = k0_pay8 (iblk m c 0 t) p.2.1 (iblk m c 1 t) := by
  unfold outsOfC
  dsimp only
  exact genC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) ((hcond0_1 t).mpr h1) VS0_0 VS0_0.junk

/-- At the last column block the forget-gate accumulator is updated as at a middle block. -/
theorem pieceC_1 (c : Dev nD) (t : Fin cfg0.N) (h0 : ¬t.val % 17 = 0) (h1 : t.val % 17 = 16) (p : Outs F) :
    (outsOfC m c t h0 h1 p).2.2.1 = k0_pay9 (iblk m c 0 t) p.2.2.1 (iblk m c 2 t) := by
  unfold outsOfC
  dsimp only
  exact genC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) ((hcond0_1 t).mpr h1) VS0_1 VS0_1.junk

/-- At the last column block the output-gate accumulator is updated as at a middle block. -/
theorem pieceC_2 (c : Dev nD) (t : Fin cfg0.N) (h0 : ¬t.val % 17 = 0) (h1 : t.val % 17 = 16) (p : Outs F) :
    (outsOfC m c t h0 h1 p).2.2.2.1 = k0_pay10 (iblk m c 0 t) p.2.2.2.1 (iblk m c 3 t) := by
  unfold outsOfC
  dsimp only
  exact genC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) ((hcond0_1 t).mpr h1) VS0_2 VS0_2.junk

/-- At the last column block the state-gate accumulator is updated as at a middle block. -/
theorem pieceC_3 (c : Dev nD) (t : Fin cfg0.N) (h0 : ¬t.val % 17 = 0) (h1 : t.val % 17 = 16) (p : Outs F) :
    (outsOfC m c t h0 h1 p).2.2.2.2 = k0_pay1 (k0_pay7 (iblk m c 0 t)) p.2.2.2.2 (iblk m c 4 t) := by
  unfold outsOfC
  dsimp only
  exact genC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) ((hcond0_1 t).mpr h1) VS0_3 VS0_3.junk

/-- At the last column block the output block is the cell's update of the four updated accumulators, each with its
    gate's bias added along every row, and of the old state's block. -/
theorem pieceC_out (c : Dev nD) (t : Fin cfg0.N) (h0 : ¬t.val % 17 = 0) (h1 : t.val % 17 = 16) (p : Outs F) :
    (outsOfC m c t h0 h1 p).1 = k0_pay2 (k0_pay8 (iblk m c 0 t) p.2.1 (iblk m c 1 t)) (iblk m c 5 t) (k0_pay9 (iblk m c 0 t) p.2.2.1 (iblk m c 2 t)) (iblk m c 6 t) (k0_pay10 (iblk m c 0 t) p.2.2.2.1 (iblk m c 3 t)) (iblk m c 7 t) (k0_pay1 (k0_pay7 (iblk m c 0 t)) p.2.2.2.2 (iblk m c 4 t)) (iblk m c 8 t) (iblk m c 9 t) := by
  unfold outsOfC
  dsimp only
  exact genC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2 (fun h => h0 ((hcond0_0 t).mp h)) ((hcond0_1 t).mpr h1) VO0_10 VO0_10.junk

end Cert.KernelIdeal.Pc

end
-- ==== Proof.Spec.lean ====
import Idealize.ShloMosaic.PureOps.Ideal
import Idealize.ShloMosaic.Lib.ValueIdx

/-!
# What the LSTM cell computes, index by index

Over the extended reals. `z` is the row-wise concatenation `[x | h_time | h_layer]` (2048 rows of 4352
entries); each of the four gates has a weight matrix of 1024 rows of 4352 entries and a bias of 1024 entries.
At row `r` and hidden unit `h` a gate's pre-activation is the inner product of row `r` of `z` with row
`h` of the gate's weights, plus the gate's bias at `h`; the new hidden state is

  `σ(o) · tanh(σ(f) · c_old + σ(i) · tanh(s))`

with `σ` the logistic function. Both programs are shown to compute this one function: the kernel by summing the
inner product over 17 column blocks of 256, the reference by one contraction over all 4352 columns.
-/

noncomputable section

open scoped BigOperators

namespace Cert.Spec

open Idealize.ShloMosaic Idealize.ShloMosaic.ValueIdx

/-- The shapes of `z`, of a gate's weights, of a gate's bias, and of the state. -/
abbrev Sz : Shape := ⟨2, ![2048, 4352]⟩
abbrev Sw : Shape := ⟨2, ![1024, 4352]⟩
abbrev Sb : Shape := ⟨1, ![1024]⟩
abbrev So : Shape := ⟨2, ![2048, 1024]⟩

/-- A gate's pre-activation at row `r` and hidden unit `h`: row `r` of `z` against row `h` of the weights,
    plus the bias at `h`. -/
def pre (z : Sz.Idx → EReal) (W : Sw.Idx → EReal) (b : Sb.Idx → EReal) (r : Fin 2048) (h : Fin 1024) : EReal :=
  (∑ k : Fin 4352, z (ix2 r k) * W (ix2 h k)) + b (ix1 h)

/-- The cell's update from the four pre-activations and the old state's entry. -/
def update (gi gf go gs c : EReal) : EReal :=
  Ideal.logistic go * Ideal.tanh (Ideal.logistic gf * c + Ideal.logistic gi * Ideal.tanh gs)

/-- The new hidden state at row `r`, unit `h`. -/
def cellAt (z : Sz.Idx → EReal) (old : So.Idx → EReal)
    (Wi : Sw.Idx → EReal) (bi : Sb.Idx → EReal) (Wf : Sw.Idx → EReal) (bf : Sb.Idx → EReal)
    (Wo : Sw.Idx → EReal) (bo : Sb.Idx → EReal) (Ws : Sw.Idx → EReal) (bs : Sb.Idx → EReal)
    (r : Fin 2048) (h : Fin 1024) : EReal :=
  update (pre z Wi bi r h) (pre z Wf bf r h) (pre z Wo bo r h) (pre z Ws bs r h) (old (ix2 r h))

/-- The new hidden state as an array. -/
def cell (z : Sz.Idx → EReal) (old : So.Idx → EReal)
    (Wi : Sw.Idx → EReal) (bi : Sb.Idx → EReal) (Wf : Sw.Idx → EReal) (bf : Sb.Idx → EReal)
    (Wo : Sw.Idx → EReal) (bo : Sb.Idx → EReal) (Ws : Sw.Idx → EReal) (bs : Sb.Idx → EReal) : So.Idx → EReal :=
  fun i => cellAt z old Wi bi Wf bf Wo bo Ws bs (i 0) (i 1)

theorem cell_ix2 (z : Sz.Idx → EReal) (old : So.Idx → EReal)
    (Wi : Sw.Idx → EReal) (bi : Sb.Idx → EReal) (Wf : Sw.Idx → EReal) (bf : Sb.Idx → EReal)
    (Wo : Sw.Idx → EReal) (bo : Sb.Idx → EReal) (Ws : Sw.Idx → EReal) (bs : Sb.Idx → EReal)
    (r : Fin 2048) (h : Fin 1024) :
    cell z old Wi bi Wf bf Wo bo Ws bs (ix2 r h) = cellAt z old Wi bi Wf bf Wo bo Ws bs r h := rfl

end Cert.Spec

end
-- ==== Proof.Pay.lean ====
import proofs.«150288_j28784870818476_1_alg».proof.Proof.Gen.KernelIdeal.Skeleton
import proofs.«150288_j28784870818476_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The kernel's stored values, entry by entry

Each value the LSTM kernel stores is a pure function of the vectors it has loaded. Read over the extended
reals, where every operation is exact and the narrowing to bf16 is the identity, they are:

* the four zero fills: every entry is 0;
* the four accumulator updates: entry (p, q) is the old accumulator's entry plus the inner product of
  row p of the 256 x 256 block of z with row q of the 1024 x 256 block of a gate's weights
  (both operands are laid out [row, k] and the contraction runs over k);
* the final value: entry (p, q) is the cell update applied to the four pre-activations
  (accumulator entry (p, q) plus the gate's bias at q) and the old state's entry (p, q).
-/

noncomputable section

open scoped BigOperators

namespace Cert.KernelIdeal.Pay

open Cert.KernelIdeal Cert.KernelIdeal.Gen Idealize.ShloMosaic Idealize.ShloMosaic.ValueIdx

/-! ## The contraction's operand indices

The contraction has output axes (row of the left operand, row of the right operand) and contracts axis 1 of
the left operand with axis 1 of the right one. So at output index i and contraction position k the left
operand is read at (i 0, k) and the right operand at (i 1, k). -/

theorem lhs_axis0 (i : S256x1024.Idx) (k : dot_S256x256_S1024x256_S256x1024_1_1_0_0_n_n.contr.Idx) :
    (dot_S256x256_S1024x256_S256x1024_1_1_0_0_n_n.lhsIdx i k 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl

theorem lhs_axis1 (i : S256x1024.Idx) (k : dot_S256x256_S1024x256_S256x1024_1_1_0_0_n_n.contr.Idx) :
    (dot_S256x256_S1024x256_S256x1024_1_1_0_0_n_n.lhsIdx i k 1).val = (k ⟨0, by decide⟩).val :=
  dot_S256x256_S1024x256_S256x1024_1_1_0_0_n_n.lhsIdx_val_of_single rfl i k

theorem rhs_axis0 (i : S256x1024.Idx) (k : dot_S256x256_S1024x256_S256x1024_1_1_0_0_n_n.contr.Idx) :
    (dot_S256x256_S1024x256_S256x1024_1_1_0_0_n_n.rhsIdx i k 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl

theorem rhs_axis1 (i : S256x1024.Idx) (k : dot_S256x256_S1024x256_S256x1024_1_1_0_0_n_n.contr.Idx) :
    (dot_S256x256_S1024x256_S256x1024_1_1_0_0_n_n.rhsIdx i k 1).val = (k ⟨0, by decide⟩).val :=
  dot_S256x256_S1024x256_S256x1024_1_1_0_0_n_n.rhsIdx_val_of_single rfl i k

/-- The product into the zero accumulator, at entry (p, q): the inner product of row p of the left operand
    with row q of the right operand. -/
theorem matmul_zero_apply (x : FVec Ideal S256x256 .bf16) (w : FVec Ideal S1024x256 .bf16) (p : Fin 256) (q : Fin 1024) :
    matmul dot_S256x256_S1024x256_S256x1024_1_1_0_0_n_n none x w (constant S256x1024 .f32 0x00000000#32) (ix2 p q)
      = ∑ kk : Fin 256, x (ix2 p kk) * w (ix2 q kk) := by
  refine (Ideal.matmul_constant_zero_apply dot_S256x256_S1024x256_S256x1024_1_1_0_0_n_n none x w (ix2 p q)).trans ?_
  rw [← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p q) ((contrEquiv1 dot_S256x256_S1024x256_S256x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S256x256_S1024x256_S256x1024_1_1_0_0_n_n.rhsIdx (ix2 p q) ((contrEquiv1 dot_S256x256_S1024x256_S256x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## An accumulator update

The narrowing of the operands to bf16 and the shape cast of a shape to itself are identities over the
extended reals, so the update is the accumulator plus the product into zero. -/

/-- The block of z after its identity shape cast and its narrowing: still the block. -/
theorem pay7_apply (x : Vec Ideal S256x256 .f32) (i : S256x256.Idx) : k0_pay7 (F := Ideal) x i = x i := by
  unfold k0_pay7
  exact congrFun (shapeCast_self x shapeCasts_S256x256_S256x256) i

/-- The accumulator plus the product of the narrowed operands into zero, at entry (p, q). -/
theorem acc_update_apply (x : Vec Ideal S256x256 .f32) (acc : Vec Ideal S256x1024 .f32) (w : Vec Ideal S1024x256 .f32)
    (p : Fin 256) (q : Fin 1024) :
    shapeCast S256x1024 (addf acc (matmul dot_S256x256_S1024x256_S256x1024_1_1_0_0_n_n none (k0_pay7 (F := Ideal) x)
        (truncf .bf16 w bitsLt_bf16_f32) (constant S256x1024 .f32 0x00000000#32))) shapeCasts_S256x1024_S256x1024 (ix2 p q)
      = acc (ix2 p q) + ∑ kk : Fin 256, x (ix2 p kk) * w (ix2 q kk) := by
  refine (congrFun (shapeCast_self _ shapeCasts_S256x1024_S256x1024) (ix2 p q)).trans ?_
  refine congrArg (acc (ix2 p q) + ·) ((matmul_zero_apply _ _ p q).trans ?_)
  exact Finset.sum_congr rfl fun kk _ => congrArg (· * w (ix2 q kk)) (pay7_apply x (ix2 p kk))

theorem pay8_apply (x : Vec Ideal S256x256 .f32) (acc : Vec Ideal S256x1024 .f32) (w : Vec Ideal S1024x256 .f32) (p : Fin 256) (q : Fin 1024) :
    k0_pay8 (F := Ideal) x acc w (ix2 p q) = acc (ix2 p q) + ∑ kk : Fin 256, x (ix2 p kk) * w (ix2 q kk) := by
  unfold k0_pay8
  exact acc_update_apply x acc w p q

theorem pay9_apply (x : Vec Ideal S256x256 .f32) (acc : Vec Ideal S256x1024 .f32) (w : Vec Ideal S1024x256 .f32) (p : Fin 256) (q : Fin 1024) :
    k0_pay9 (F := Ideal) x acc w (ix2 p q) = acc (ix2 p q) + ∑ kk : Fin 256, x (ix2 p kk) * w (ix2 q kk) := by
  unfold k0_pay9
  exact acc_update_apply x acc w p q

theorem pay10_apply (x : Vec Ideal S256x256 .f32) (acc : Vec Ideal S256x1024 .f32) (w : Vec Ideal S1024x256 .f32) (p : Fin 256) (q : Fin 1024) :
    k0_pay10 (F := Ideal) x acc w (ix2 p q) = acc (ix2 p q) + ∑ kk : Fin 256, x (ix2 p kk) * w (ix2 q kk) := by
  unfold k0_pay10
  exact acc_update_apply x acc w p q

theorem pay1_apply (x : Vec Ideal S256x256 .f32) (acc : Vec Ideal S256x1024 .f32) (w : Vec Ideal S1024x256 .f32) (p : Fin 256) (q : Fin 1024) :
    k0_pay1 (F := Ideal) (k0_pay7 x) acc w (ix2 p q) = acc (ix2 p q) + ∑ kk : Fin 256, x (ix2 p kk) * w (ix2 q kk) := by
  unfold k0_pay1
  exact acc_update_apply x acc w p q

/-! ## The zero fills -/

/-- The word of all zero bits, splat over the block and cast to its own shape, is 0 at every entry. -/
theorem zero_fill_apply (j : S256x1024.Idx) :
    shapeCast S256x1024 (broadcast S256x1024 (Scalar.ofBits (F := Ideal) .f32 0x00000000#32)) shapeCasts_S256x1024_S256x1024 j = 0 := by
  refine (congrFun (shapeCast_self _ shapeCasts_S256x1024_S256x1024) j).trans ?_
  exact Ideal.ofBits_zero_f32

theorem pay3_apply (j : S256x1024.Idx) : k0_pay3 (F := Ideal) j = 0 := by
  unfold k0_pay3
  exact zero_fill_apply j

theorem pay4_apply (j : S256x1024.Idx) : k0_pay4 (F := Ideal) j = 0 := by
  unfold k0_pay4
  exact zero_fill_apply j

theorem pay5_apply (j : S256x1024.Idx) : k0_pay5 (F := Ideal) j = 0 := by
  unfold k0_pay5
  exact zero_fill_apply j

theorem pay6_apply (j : S256x1024.Idx) : k0_pay6 (F := Ideal) j = 0 := by
  unfold k0_pay6
  exact zero_fill_apply j

/-! ## The final value

A bias of 1024 entries is viewed as one row of 1024 and that row is repeated over the 256 rows: at (p, q)
it reads the bias at q. -/

theorem bias_apply (b : Vec Ideal S1024 .f32) (p : Fin 256) (q : Fin 1024) :
    broadcastTo S256x1024 (shapeCast S1x1024 b shapeCasts_S1024_S1x1024) broadcasts_S1x1024_S256x1024 (ix2 p q) = b (ix1 q) :=
  (broadcastTo_1b_ab_apply _ broadcasts_S1x1024_S256x1024 p q).trans
    (shapeCast_a_1a_apply b shapeCasts_S1024_S1x1024 (0 : Fin 1) q)

/-- An accumulator plus its broadcast bias, at entry (p, q). -/
theorem preact_apply (a : Vec Ideal S256x1024 .f32) (b : Vec Ideal S1024 .f32) (p : Fin 256) (q : Fin 1024) :
    addf (F := Ideal) (s := S256x1024) (φ := .f32) a
        (broadcastTo S256x1024 (shapeCast S1x1024 b shapeCasts_S1024_S1x1024) broadcasts_S1x1024_S256x1024) (ix2 p q)
      = a (ix2 p q) + b (ix1 q) :=
  congrArg (a (ix2 p q) + ·) (bias_apply b p q)

theorem pay2_apply (a0 : Vec Ideal S256x1024 .f32) (b0 : Vec Ideal S1024 .f32) (a1 : Vec Ideal S256x1024 .f32) (b1 : Vec Ideal S1024 .f32) (a2 : Vec Ideal S256x1024 .f32) (b2 : Vec Ideal S1024 .f32) (a3 : Vec Ideal S256x1024 .f32) (b3 : Vec Ideal S1024 .f32) (old : Vec Ideal S256x1024 .f32) (p : Fin 256) (q : Fin 1024) :
    k0_pay2 (F := Ideal) a0 b0 a1 b1 a2 b2 a3 b3 old (ix2 p q) = Cert.Spec.update (a0 (ix2 p q) + b0 (ix1 q)) (a1 (ix2 p q) + b1 (ix1 q)) (a2 (ix2 p q) + b2 (ix1 q)) (a3 (ix2 p q) + b3 (ix1 q)) (old (ix2 p q)) := by
  unfold k0_pay2 Cert.Spec.update
  rw [← preact_apply a0 b0 p q, ← preact_apply a1 b1 p q, ← preact_apply a2 b2 p q, ← preact_apply a3 b3 p q]
  rfl

end Cert.KernelIdeal.Pay

end
-- ==== Proof.Blocks.lean ====
import proofs.«150288_j28784870818476_1_alg».proof.Proof.FrKernelIdeal.Kit
import Idealize.ShloMosaic.Lib.ValueIdx
import Idealize.ShloMosaic.Lib.Pipeline.Value
import Idealize.ShloMosaic.Lib.StableHlo.Run

/-!
# The windows' blocks as entries of their arrays

The region runs over 8 row blocks by 17 column blocks: point `t` has row block `t / 17` and column block `t % 17`.
This module says which entry of its array each element of a window's block is:

* `z` (2048 x 4352, the concatenation of the three arguments along the columns) in blocks of 256 x 256: element
  `(p, k)` of the block at `t` is `z (256 (t / 17) + p, 256 (t % 17) + k)`;
* each weight matrix (1024 x 4352) in blocks of 1024 x 256: element `(q, k)` is entry `(q, 256 (t % 17) + k)`;
* each bias (1024) whole: element `q` is entry `q`;
* the old state (2048 x 1024) in blocks of 256 x 1024: element `(p, q)` is entry `(256 (t / 17) + p, q)`.

The output (2048 x 1024) is written back in blocks of 256 x 1024 at the last column block of each row block
(`t % 17 = 16`); row `r` lies in the block written back at point `17 (r / 256) + 16`, so the write-backs cover the array.
-/

set_option maxRecDepth 16384

noncomputable section

namespace Cert.KernelIdeal.Blk

open Cert.KernelIdeal Cert.KernelIdeal.Gen Cert.KernelIdeal.Fr Idealize.ShloMosaic Idealize.ShloMosaic.ValueIdx Idealize.SL.Sem
open Idealize.ShloMosaic.TcCoe

variable {F : FTy → Type} [FloatOps F] (m : (ℓ : Loc nD τ sig) → Buf (Elt F) ℓ)

/-! ## Rows and columns of a point's blocks -/

/-- The grid has 136 points. -/
theorem t_lt (t : Fin cfg0.N) : t.val < 136 := lt_of_lt_of_eq t.isLt N_0

/-- Row `p` of row block `t / 17`: row `256 (t / 17) + p` of a 2048-row array. -/
def rowOf (t : Fin cfg0.N) (p : Fin 256) : Fin 2048 :=
  ⟨256 * (t.val / 17) + p.val, by have := t_lt t; have := p.isLt; omega⟩

/-- Column `k` of column block `t % 17`: column `256 (t % 17) + k` of a 4352-column array. -/
def colOf (t : Fin cfg0.N) (kk : Fin 256) : Fin 4352 :=
  ⟨256 * (t.val % 17) + kk.val, by have := kk.isLt; omega⟩

/-! ## What `z`'s buffer holds -/

/-- The region finds in `z`'s buffer the three arguments side by side along the columns. -/
theorem V_z (c : Dev nD) : V m c main_v0 = concatenate S2048x4352 1 [⟨S2048x2304, m ((c : Thread nD τ).loc main_arg0)⟩, ⟨S2048x1024, m ((c : Thread nD τ).loc main_arg1)⟩, ⟨S2048x1024, m ((c : Thread nD τ).loc main_arg2)⟩] concatenates_S2048x2304_S2048x1024_S2048x1024_S2048x4352_d1 := by
  show StableHlo.after hostOps0 _ (Proc.devRef .tc main_v0) = _
  rw [StableHlo.after_cons, StableHlo.after_nil, StableHlo.nary_result]
  rfl

/-! ## The input windows' blocks

A block's element sits in its array, on each axis, at the block index times the block's extent plus the element's own
coordinate; the block indices are decided once over the grid. -/

/-- `z`'s block index at `t` is (row block, column block). -/
theorem idx0 : ∀ t : Fin cfg0.N, win0_0.index t (0 : Fin 2) = t.val / 17 ∧ win0_0.index t (1 : Fin 2) = t.val % 17 :=
  (by decide +kernel : ∀ t : Fin grid0.N, _)

/-- Element `(p, k)` of `z`'s block at `t` is `z (256 (t / 17) + p, 256 (t % 17) + k)`. -/
theorem iblk0_apply (c : Dev nD) (t : Fin cfg0.N) (p kk : Fin 256) :
    (iblk m c 0 t : S256x256.Idx → Elt F .f32) (ix2 p kk) = V m c main_v0 (ix2 (rowOf t p) (colOf t kk)) := by
  obtain ⟨e0, e1⟩ := idx0 t
  unfold iblk
  show V m c main_v0 (((cfg0.win 0).blk t).view.emb (ix2 p kk)) = V m c main_v0 _
  congr 1
  funext a; apply Fin.ext
  match a with
  | ⟨0, _⟩ => show win0_0.index t (0 : Fin 2) * 256 + 1 * p.val = 256 * (t.val / 17) + p.val; omega
  | ⟨1, _⟩ => show win0_0.index t (1 : Fin 2) * 256 + 1 * kk.val = 256 * (t.val % 17) + kk.val; omega

/-- Weight window 1's block index at `t` is (0, column block). -/
theorem idx1 : ∀ t : Fin cfg0.N, win0_1.index t (0 : Fin 2) = 0 ∧ win0_1.index t (1 : Fin 2) = t.val % 17 :=
  (by decide +kernel : ∀ t : Fin grid0.N, _)

/-- Element `(q, k)` of weight window 1's block at `t` is entry `(q, 256 (t % 17) + k)` of its matrix. -/
theorem iblk1_apply (c : Dev nD) (t : Fin cfg0.N) (q : Fin 1024) (kk : Fin 256) :
    (iblk m c 1 t : S1024x256.Idx → Elt F .f32) (ix2 q kk) = V m c main_arg4 (ix2 q (colOf t kk)) := by
  obtain ⟨e0, e1⟩ := idx1 t
  unfold iblk
  show V m c main_arg4 (((cfg0.win 1).blk t).view.emb (ix2 q kk)) = V m c main_arg4 _
  congr 1
  funext a; apply Fin.ext
  match a with
  | ⟨0, _⟩ => show win0_1.index t (0 : Fin 2) * 1024 + 1 * q.val = q.val; omega
  | ⟨1, _⟩ => show win0_1.index t (1 : Fin 2) * 256 + 1 * kk.val = 256 * (t.val % 17) + kk.val; omega

/-- Weight window 2's block index at `t` is (0, column block). -/
theorem idx2 : ∀ t : Fin cfg0.N, win0_2.index t (0 : Fin 2) = 0 ∧ win0_2.index t (1 : Fin 2) = t.val % 17 :=
  (by decide +kernel : ∀ t : Fin grid0.N, _)

/-- Element `(q, k)` of weight window 2's block at `t` is entry `(q, 256 (t % 17) + k)` of its matrix. -/
theorem iblk2_apply (c : Dev nD) (t : Fin cfg0.N) (q : Fin 1024) (kk : Fin 256) :
    (iblk m c 2 t : S1024x256.Idx → Elt F .f32) (ix2 q kk) = V m c main_arg6 (ix2 q (colOf t kk)) := by
  obtain ⟨e0, e1⟩ := idx2 t
  unfold iblk
  show V m c main_arg6 (((cfg0.win 2).blk t).view.emb (ix2 q kk)) = V m c main_arg6 _
  congr 1
  funext a; apply Fin.ext
  match a with
  | ⟨0, _⟩ => show win0_2.index t (0 : Fin 2) * 1024 + 1 * q.val = q.val; omega
  | ⟨1, _⟩ => show win0_2.index t (1 : Fin 2) * 256 + 1 * kk.val = 256 * (t.val % 17) + kk.val; omega

/-- Weight window 3's block index at `t` is (0, column block). -/
theorem idx3 : ∀ t : Fin cfg0.N, win0_3.index t (0 : Fin 2) = 0 ∧ win0_3.index t (1 : Fin 2) = t.val % 17 :=
  (by decide +kernel : ∀ t : Fin grid0.N, _)

/-- Element `(q, k)` of weight window 3's block at `t` is entry `(q, 256 (t % 17) + k)` of its matrix. -/
theorem iblk3_apply (c : Dev nD) (t : Fin cfg0.N) (q : Fin 1024) (kk : Fin 256) :
    (iblk m c 3 t : S1024x256.Idx → Elt F .f32) (ix2 q kk) = V m c main_arg8 (ix2 q (colOf t kk)) := by
  obtain ⟨e0, e1⟩ := idx3 t
  unfold iblk
  show V m c main_arg8 (((cfg0.win 3).blk t).view.emb (ix2 q kk)) = V m c main_arg8 _
  congr 1
  funext a; apply Fin.ext
  match a with
  | ⟨0, _⟩ => show win0_3.index t (0 : Fin 2) * 1024 + 1 * q.val = q.val; omega
  | ⟨1, _⟩ => show win0_3.index t (1 : Fin 2) * 256 + 1 * kk.val = 256 * (t.val % 17) + kk.val; omega

/-- Weight window 4's block index at `t` is (0, column block). -/
theorem idx4 : ∀ t : Fin cfg0.N, win0_4.index t (0 : Fin 2) = 0 ∧ win0_4.index t (1 : Fin 2) = t.val % 17 :=
  (by decide +kernel : ∀ t : Fin grid0.N, _)

/-- Element `(q, k)` of weight window 4's block at `t` is entry `(q, 256 (t % 17) + k)` of its matrix. -/
theorem iblk4_apply (c : Dev nD) (t : Fin cfg0.N) (q : Fin 1024) (kk : Fin 256) :
    (iblk m c 4 t : S1024x256.Idx → Elt F .f32) (ix2 q kk) = V m c main_arg10 (ix2 q (colOf t kk)) := by
  obtain ⟨e0, e1⟩ := idx4 t
  unfold iblk
  show V m c main_arg10 (((cfg0.win 4).blk t).view.emb (ix2 q kk)) = V m c main_arg10 _
  congr 1
  funext a; apply Fin.ext
  match a with
  | ⟨0, _⟩ => show win0_4.index t (0 : Fin 2) * 1024 + 1 * q.val = q.val; omega
  | ⟨1, _⟩ => show win0_4.index t (1 : Fin 2) * 256 + 1 * kk.val = 256 * (t.val % 17) + kk.val; omega

/-- Bias window 5's block index is 0 at every point: its block is the whole vector. -/
theorem idx5 : ∀ t : Fin cfg0.N, win0_5.index t (0 : Fin 1) = 0 :=
  (by decide +kernel : ∀ t : Fin grid0.N, _)

/-- Element `q` of bias window 5's block, at any point, is entry `q` of its vector. -/
theorem iblk5_apply (c : Dev nD) (t : Fin cfg0.N) (q : Fin 1024) :
    (iblk m c 5 t : S1024.Idx → Elt F .f32) (ix1 q) = V m c main_arg5 (ix1 q) := by
  have e0 := idx5 t
  unfold iblk
  show V m c main_arg5 (((cfg0.win 5).blk t).view.emb (ix1 q)) = V m c main_arg5 _
  congr 1
  funext a; apply Fin.ext
  match a with
  | ⟨0, _⟩ => show win0_5.index t (0 : Fin 1) * 1024 + 1 * q.val = q.val; omega

/-- Bias window 6's block index is 0 at every point: its block is the whole vector. -/
theorem idx6 : ∀ t : Fin cfg0.N, win0_6.index t (0 : Fin 1) = 0 :=
  (by decide +kernel : ∀ t : Fin grid0.N, _)

/-- Element `q` of bias window 6's block, at any point, is entry `q` of its vector. -/
theorem iblk6_apply (c : Dev nD) (t : Fin cfg0.N) (q : Fin 1024) :
    (iblk m c 6 t : S1024.Idx → Elt F .f32) (ix1 q) = V m c main_arg7 (ix1 q) := by
  have e0 := idx6 t
  unfold iblk
  show V m c main_arg7 (((cfg0.win 6).blk t).view.emb (ix1 q)) = V m c main_arg7 _
  congr 1
  funext a; apply Fin.ext
  match a with
  | ⟨0, _⟩ => show win0_6.index t (0 : Fin 1) * 1024 + 1 * q.val = q.val; omega

/-- Bias window 7's block index is 0 at every point: its block is the whole vector. -/
theorem idx7 : ∀ t : Fin cfg0.N, win0_7.index t (0 : Fin 1) = 0 :=
  (by decide +kernel : ∀ t : Fin grid0.N, _)

/-- Element `q` of bias window 7's block, at any point, is entry `q` of its vector. -/
theorem iblk7_apply (c : Dev nD) (t : Fin cfg0.N) (q : Fin 1024) :
    (iblk m c 7 t : S1024.Idx → Elt F .f32) (ix1 q) = V m c main_arg9 (ix1 q) := by
  have e0 := idx7 t
  unfold iblk
  show V m c main_arg9 (((cfg0.win 7).blk t).view.emb (ix1 q)) = V m c main_arg9 _
  congr 1
  funext a; apply Fin.ext
  match a with
  | ⟨0, _⟩ => show win0_7.index t (0 : Fin 1) * 1024 + 1 * q.val = q.val; omega

/-- Bias window 8's block index is 0 at every point: its block is the whole vector. -/
theorem idx8 : ∀ t : Fin cfg0.N, win0_8.index t (0 : Fin 1) = 0 :=
  (by decide +kernel : ∀ t : Fin grid0.N, _)

/-- Element `q` of bias window 8's block, at any point, is entry `q` of its vector. -/
theorem iblk8_apply (c : Dev nD) (t : Fin cfg0.N) (q : Fin 1024) :
    (iblk m c 8 t : S1024.Idx → Elt F .f32) (ix1 q) = V m c main_arg11 (ix1 q) := by
  have e0 := idx8 t
  unfold iblk
  show V m c main_arg11 (((cfg0.win 8).blk t).view.emb (ix1 q)) = V m c main_arg11 _
  congr 1
  funext a; apply Fin.ext
  match a with
  | ⟨0, _⟩ => show win0_8.index t (0 : Fin 1) * 1024 + 1 * q.val = q.val; omega

/-- The old state's block index at `t` is (row block, 0). -/
theorem idx9 : ∀ t : Fin cfg0.N, win0_9.index t (0 : Fin 2) = t.val / 17 ∧ win0_9.index t (1 : Fin 2) = 0 :=
  (by decide +kernel : ∀ t : Fin grid0.N, _)

/-- Element `(p, q)` of the old state's block at `t` is entry `(256 (t / 17) + p, q)`. -/
theorem iblk9_apply (c : Dev nD) (t : Fin cfg0.N) (p : Fin 256) (q : Fin 1024) :
    (iblk m c 9 t : S256x1024.Idx → Elt F .f32) (ix2 p q) = V m c main_arg3 (ix2 (rowOf t p) q) := by
  obtain ⟨e0, e1⟩ := idx9 t
  unfold iblk
  show V m c main_arg3 (((cfg0.win 9).blk t).view.emb (ix2 p q)) = V m c main_arg3 _
  congr 1
  funext a; apply Fin.ext
  match a with
  | ⟨0, _⟩ => show win0_9.index t (0 : Fin 2) * 256 + 1 * p.val = 256 * (t.val / 17) + p.val; omega
  | ⟨1, _⟩ => show win0_9.index t (1 : Fin 2) * 1024 + 1 * q.val = q.val; omega

/-! ## The output window: where it is written back, and that the write-backs cover the array -/

/-- The output's block index at `t` is (row block, 0). -/
theorem idx10 : ∀ t : Fin cfg0.N, win0_10.index t (0 : Fin 2) = t.val / 17 ∧ win0_10.index t (1 : Fin 2) = 0 :=
  (by decide +kernel : ∀ t : Fin grid0.N, _)

/-- An index of the output array is in point `t`'s block iff each coordinate is in the block's range on its axis. -/
theorem mem_blk10 (t : Fin cfg0.N) (i : S2048x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v1).slice (win0_10.rect t)).set ↔ _
  rw [View.set_slice_whole, Rect.mem_set_unit]
  exact Iff.rfl

/-- Every index of the output array is in a block that is written back: row `r` is in row block `r / 256`, whose
    last point `17 (r / 256) + 16` writes the block back. -/
theorem covered10 (i : S2048x1024.Idx) : ∃ t : Fin cfg0.N, (cfg0.win 10).flush t = true ∧ i ∈ ((cfg0.win 10).blk t).view.set := by
  have hi0 : (i 0).val < 2048 := (i 0).isLt
  have hi1 : (i 1).val < 1024 := (i 1).isLt
  obtain ⟨t, ht⟩ : ∃ t : Fin cfg0.N, t.val = 17 * ((i 0).val / 256) + 16 :=
    ⟨⟨17 * ((i 0).val / 256) + 16, lt_of_lt_of_eq (by omega) N_0.symm⟩, rfl⟩
  obtain ⟨e0, e1⟩ := idx10 t
  refine ⟨t, (flush0_10 t).mpr (by omega), ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

end Cert.KernelIdeal.Blk

end
-- ==== Proof.Acc.lean ====
import Mathlib.Data.EReal.Basic
import Mathlib.Algebra.BigOperators.Group.Finset.Basic
import Mathlib.Data.Fintype.BigOperators

/-!
# An inner product accumulated block by block

An inner product over 4352 positions is accumulated in 17 consecutive blocks of 256 positions, starting from zero:
the first step adds block 0 to zero, each later step adds the next block to the running value. Addition of extended
reals is commutative and associative with zero neutral, so the running value after block `n` is the sum of the
products over the first `256 * (n + 1)` positions, and after the last block (`256 * 17 = 4352`) it is the whole
inner product.
-/

noncomputable section

open scoped BigOperators

namespace Cert.Acc

/-- The inner product restricted to block `k`: positions `256 * k` to `256 * k + 255`. -/
def blockDot (u v : Fin 4352 → EReal) (k : Fin 17) : EReal :=
  ∑ kk : Fin 256, u ⟨256 * k.val + kk.val, by omega⟩ * v ⟨256 * k.val + kk.val, by omega⟩

/-- The running value after block `n`: zero plus block 0, then each further block added in turn. -/
def accUpTo (u v : Fin 4352 → EReal) : (n : ℕ) → n < 17 → EReal
  | 0, h => 0 + blockDot u v ⟨0, h⟩
  | n + 1, h => accUpTo u v n (Nat.lt_of_succ_lt h) + blockDot u v ⟨n + 1, h⟩

theorem accUpTo_zero (u v : Fin 4352 → EReal) (h : 0 < 17) : accUpTo u v 0 h = 0 + blockDot u v ⟨0, h⟩ := rfl

theorem accUpTo_succ (u v : Fin 4352 → EReal) (n : ℕ) (h : n + 1 < 17) :
    accUpTo u v (n + 1) h = accUpTo u v n (Nat.lt_of_succ_lt h) + blockDot u v ⟨n + 1, h⟩ := rfl

/-- The product at position `j`, and zero past the last position. -/
def term (u v : Fin 4352 → EReal) (j : ℕ) : EReal := if hj : j < 4352 then u ⟨j, hj⟩ * v ⟨j, hj⟩ else 0

/-- A block is the sum of the products over its 256 positions. -/
theorem blockDot_eq (u v : Fin 4352 → EReal) (k : Fin 17) :
    blockDot u v k = ∑ i ∈ Finset.range 256, term u v (256 * k.val + i) := by
  rw [← Fin.sum_univ_eq_sum_range (fun i => term u v (256 * k.val + i)) 256]
  refine Finset.sum_congr rfl fun kk _ => ?_
  have hlt : 256 * k.val + kk.val < 4352 := by omega
  rw [term, dif_pos hlt]

/-- After block `n` the running value is the sum of the products over the first `256 * (n + 1)` positions. -/
theorem accUpTo_eq (u v : Fin 4352 → EReal) : ∀ (n : ℕ) (h : n < 17),
    accUpTo u v n h = ∑ j ∈ Finset.range (256 * (n + 1)), term u v j
  | 0, h => by
    rw [accUpTo_zero, zero_add, blockDot_eq]
    refine Finset.sum_congr rfl fun i _ => ?_
    show term u v (256 * 0 + i) = term u v i
    rw [Nat.mul_zero, Nat.zero_add]
  | n + 1, h => by
    rw [accUpTo_succ, accUpTo_eq u v n (Nat.lt_of_succ_lt h), blockDot_eq,
      show 256 * (n + 1 + 1) = 256 * (n + 1) + 256 by omega, Finset.sum_range_add]

/-- After the last block the running value is the whole inner product. -/
theorem accUpTo_last (u v : Fin 4352 → EReal) : accUpTo u v 16 (by decide) = ∑ j : Fin 4352, u j * v j := by
  rw [accUpTo_eq, show 256 * (16 + 1) = 4352 from rfl, ← Fin.sum_univ_eq_sum_range (term u v) 4352]
  refine Finset.sum_congr rfl fun j _ => ?_
  rw [term, dif_pos j.isLt]

end Cert.Acc

end
-- ==== Proof.KValue.lean ====
import proofs.«150288_j28784870818476_1_alg».proof.Proof.FrKernelIdeal.Frame
import proofs.«150288_j28784870818476_1_alg».proof.Proof.Pieces
import proofs.«150288_j28784870818476_1_alg».proof.Proof.Pay
import proofs.«150288_j28784870818476_1_alg».proof.Proof.Blocks
import proofs.«150288_j28784870818476_1_alg».proof.Proof.Acc
import proofs.«150288_j28784870818476_1_alg».proof.Proof.Spec

/-!
# The kernel's result array is the LSTM cell

Over the extended reals. At point `t` (row block `t / 17`, column block `t % 17`) each of the four accumulators
takes, at row `p` and unit `q`, its previous entry (zero at the first column block) plus the inner product of row
`256 (t / 17) + p` of `z` with row `q` of the gate's weights over the columns of block `t % 17`. By induction on
the point the accumulator after point `t` is the inner product's partial sum over the column blocks `0 … t % 17`,
summed in that order; after the last column block it is the whole inner product. There the body adds the biases and
stores `σ(o) · tanh(σ(f) · c_old + σ(i) · tanh(s))`, which is the cell's value at `(256 (t / 17) + p, q)`; the
write-backs at the last column blocks cover the result array.
-/

set_option maxRecDepth 16384

noncomputable section

open scoped BigOperators

namespace Cert.KernelIdeal.Val

open Cert.KernelIdeal Cert.KernelIdeal.Gen Cert.KernelIdeal.Fr Cert.KernelIdeal.Pc Cert.KernelIdeal.Pay Cert.KernelIdeal.Blk
open Idealize.ShloMosaic Idealize.ShloMosaic.TcCoe Idealize.ShloMosaic.ValueIdx Idealize.SL.Sem
open Idealize.ShloMosaic.Pipeline (Dat)
open Cert.Acc

variable (m : (ℓ : Loc nD τ sig) → Buf (Elt Ideal) ℓ) (ρ : Dev nD → PrngReg)

/-! ## Partial sums indexed by a plain number -/

/-- The accumulator after column blocks `0 … k` (zero past the last block: never consulted). -/
def accN (u v : Fin 4352 → EReal) (k : ℕ) : EReal := if h : k < 17 then accUpTo u v k h else 0

theorem accN_first (u v : Fin 4352 → EReal) (k' : ℕ) (hk' : k' < 17) (e : k' = 0) :
    0 + blockDot u v ⟨k', hk'⟩ = accN u v k' := by
  subst e; unfold accN; rw [dif_pos hk']; rfl

theorem accN_step (u v : Fin 4352 → EReal) (k k' : ℕ) (hk' : k' < 17) (e : k' = k + 1) :
    accN u v k + blockDot u v ⟨k', hk'⟩ = accN u v k' := by
  subst e; unfold accN; rw [dif_pos hk', dif_pos (Nat.lt_of_succ_lt hk')]; rfl

theorem accN_last (u v : Fin 4352 → EReal) (k : ℕ) (e : k = 16) : accN u v k = ∑ j : Fin 4352, u j * v j := by
  subst e; unfold accN; rw [dif_pos (by decide)]; exact accUpTo_last u v

/-! ## Rows -/

/-- Row `r` of `z` as the region finds it. -/
def zRow (c : Dev nD) (r : Fin 2048) : Fin 4352 → EReal := fun j => V m c main_v0 (ix2 r j)
/-- Row `q` of a weight matrix. -/
def wRow (W : S1024x4352.Idx → EReal) (q : Fin 1024) : Fin 4352 → EReal := fun j => W (ix2 q j)

/-- The product of row `p` of the point's `z` block with row `q` of a weight block is the inner product's part
    over the columns of block `t % 17`. -/
theorem dot_block (c : Dev nD) (t : Fin cfg0.N) (xb : S256x256.Idx → EReal) (wb : S1024x256.Idx → EReal) (W : S1024x4352.Idx → EReal)
    (hx : ∀ p kk, xb (ix2 p kk) = V m c main_v0 (ix2 (rowOf t p) (colOf t kk)))
    (hw : ∀ q kk, wb (ix2 q kk) = W (ix2 q (colOf t kk))) (p : Fin 256) (q : Fin 1024) :
    (∑ kk : Fin 256, xb (ix2 p kk) * wb (ix2 q kk))
      = blockDot (zRow m c (rowOf t p)) (wRow W q) ⟨t.val % 17, Nat.mod_lt _ (by decide)⟩ := by
  unfold blockDot zRow wRow
  refine Finset.sum_congr rfl fun kk _ => ?_
  rw [hx, hw]; rfl

/-! ## One point's step of the four accumulators -/

/-- What the four accumulators hold at `(p, q)` in terms of what they held before (`a0 … a3`; zero at a first
    column block) when each is its payload over the point's blocks. -/
theorem step_of (c : Dev nD) (t : Fin cfg0.N) (s0 s1 s2 s3 a0 a1 a2 a3 : S256x1024.Idx → EReal)
    (e0 : s0 = k0_pay8 (F := Ideal) (iblk m c 0 t) a0 (iblk m c 1 t))
    (e1 : s1 = k0_pay9 (F := Ideal) (iblk m c 0 t) a1 (iblk m c 2 t))
    (e2 : s2 = k0_pay10 (F := Ideal) (iblk m c 0 t) a2 (iblk m c 3 t))
    (e3 : s3 = k0_pay1 (F := Ideal) (k0_pay7 (iblk m c 0 t)) a3 (iblk m c 4 t)) (p : Fin 256) (q : Fin 1024) :
    s0 (ix2 p q) = a0 (ix2 p q) + blockDot (zRow m c (rowOf t p)) (wRow (V m c main_arg4) q) ⟨t.val % 17, Nat.mod_lt _ (by decide)⟩
    ∧ s1 (ix2 p q) = a1 (ix2 p q) + blockDot (zRow m c (rowOf t p)) (wRow (V m c main_arg6) q) ⟨t.val % 17, Nat.mod_lt _ (by decide)⟩
    ∧ s2 (ix2 p q) = a2 (ix2 p q) + blockDot (zRow m c (rowOf t p)) (wRow (V m c main_arg8) q) ⟨t.val % 17, Nat.mod_lt _ (by decide)⟩
    ∧ s3 (ix2 p q) = a3 (ix2 p q) + blockDot (zRow m c (rowOf t p)) (wRow (V m c main_arg10) q) ⟨t.val % 17, Nat.mod_lt _ (by decide)⟩ := by
  subst e0 e1 e2 e3
  refine ⟨?_, ?_, ?_, ?_⟩
  · rw [pay8_apply, dot_block m c t _ _ (V m c main_arg4) (iblk0_apply m c t) (iblk1_apply m c t)]
  · rw [pay9_apply, dot_block m c t _ _ (V m c main_arg6) (iblk0_apply m c t) (iblk2_apply m c t)]
  · rw [pay10_apply, dot_block m c t _ _ (V m c main_arg8) (iblk0_apply m c t) (iblk3_apply m c t)]
  · rw [pay1_apply, dot_block m c t _ _ (V m c main_arg10) (iblk0_apply m c t) (iblk4_apply m c t)]

/-! ## The invariant: the accumulators are the ordered partial sums -/

/-- The four accumulators after point `n`, at `(p, q)`. -/
def AccInv (c : Dev nD) (n : ℕ) (hn : n < cfg0.N) : Prop :=
  ∀ (p : Fin 256) (q : Fin 1024),
    (outsAt0 m c n hn).2.1 (ix2 p q) = accN (zRow m c (rowOf ⟨n, hn⟩ p)) (wRow (V m c main_arg4) q) (n % 17)
    ∧ (outsAt0 m c n hn).2.2.1 (ix2 p q) = accN (zRow m c (rowOf ⟨n, hn⟩ p)) (wRow (V m c main_arg6) q) (n % 17)
    ∧ (outsAt0 m c n hn).2.2.2.1 (ix2 p q) = accN (zRow m c (rowOf ⟨n, hn⟩ p)) (wRow (V m c main_arg8) q) (n % 17)
    ∧ (outsAt0 m c n hn).2.2.2.2 (ix2 p q) = accN (zRow m c (rowOf ⟨n, hn⟩ p)) (wRow (V m c main_arg10) q) (n % 17)

/-- At a first column block the accumulators restart from zero. -/
theorem inv_first (c : Dev nD) (t : Fin cfg0.N) (h0 : t.val % 17 = 0) (h1 : ¬t.val % 17 = 16) : AccInv m c t.val t.isLt := by
  unfold AccInv
  intro p q
  rw [outsAt0_A m c t h0 h1]
  obtain ⟨r0, r1, r2, r3⟩ := step_of m c t _ _ _ _ _ _ _ _ (pieceA_0 m c t h0 h1) (pieceA_1 m c t h0 h1) (pieceA_2 m c t h0 h1) (pieceA_3 m c t h0 h1) p q
  rw [pay3_apply] at r0; rw [pay4_apply] at r1; rw [pay5_apply] at r2; rw [pay6_apply] at r3
  exact ⟨r0.trans (accN_first _ _ _ _ h0), r1.trans (accN_first _ _ _ _ h0), r2.trans (accN_first _ _ _ _ h0), r3.trans (accN_first _ _ _ _ h0)⟩

/-- At any later column block each accumulator adds its block to what the point before left. -/
theorem inv_next (c : Dev nD) (n : ℕ) (hn : n + 1 < cfg0.N) (h0 : ¬(n + 1) % 17 = 0)
    (ih : AccInv m c n (Nat.lt_of_succ_lt hn)) : AccInv m c (n + 1) hn := by
  unfold AccInv at ih ⊢
  intro p q
  have hr : rowOf ⟨n + 1, hn⟩ p = rowOf ⟨n, Nat.lt_of_succ_lt hn⟩ p := by
    apply Fin.ext; simp only [rowOf]; omega
  have hk : (n + 1) % 17 = n % 17 + 1 := by omega
  obtain ⟨i0, i1, i2, i3⟩ := ih p q
  by_cases h1 : (n + 1) % 17 = 16
  · rw [outsAt0_C m c ⟨n + 1, hn⟩ h0 h1]
    obtain ⟨r0, r1, r2, r3⟩ := step_of m c ⟨n + 1, hn⟩ _ _ _ _ _ _ _ _ (pieceC_0 m c ⟨n + 1, hn⟩ h0 h1 _) (pieceC_1 m c ⟨n + 1, hn⟩ h0 h1 _) (pieceC_2 m c ⟨n + 1, hn⟩ h0 h1 _) (pieceC_3 m c ⟨n + 1, hn⟩ h0 h1 _) p q
    simp only [Nat.add_sub_cancel] at r0 r1 r2 r3
    rw [i0, ← hr] at r0; rw [i1, ← hr] at r1; rw [i2, ← hr] at r2; rw [i3, ← hr] at r3
    exact ⟨r0.trans (accN_step _ _ _ _ _ hk), r1.trans (accN_step _ _ _ _ _ hk), r2.trans (accN_step _ _ _ _ _ hk), r3.trans (accN_step _ _ _ _ _ hk)⟩
  · rw [outsAt0_B m c ⟨n + 1, hn⟩ h0 h1]
    obtain ⟨r0, r1, r2, r3⟩ := step_of m c ⟨n + 1, hn⟩ _ _ _ _ _ _ _ _ (pieceB_0 m c ⟨n + 1, hn⟩ h0 h1 _) (pieceB_1 m c ⟨n + 1, hn⟩ h0 h1 _) (pieceB_2 m c ⟨n + 1, hn⟩ h0 h1 _) (pieceB_3 m c ⟨n + 1, hn⟩ h0 h1 _) p q
    simp only [Nat.add_sub_cancel] at r0 r1 r2 r3
    rw [i0, ← hr] at r0; rw [i1, ← hr] at r1; rw [i2, ← hr] at r2; rw [i3, ← hr] at r3
    exact ⟨r0.trans (accN_step _ _ _ _ _ hk), r1.trans (accN_step _ _ _ _ _ hk), r2.trans (accN_step _ _ _ _ _ hk), r3.trans (accN_step _ _ _ _ _ hk)⟩

/-- By induction on the point. -/
theorem acc_inv (c : Dev nD) : ∀ (n : ℕ) (hn : n < cfg0.N), AccInv m c n hn
  | 0, hn => inv_first m c ⟨0, hn⟩ (Nat.zero_mod _) (by show ¬(0 % 17 = 16); decide)
  | n + 1, hn => by
    by_cases h0 : (n + 1) % 17 = 0
    · exact inv_first m c ⟨n + 1, hn⟩ h0 (by show ¬((n + 1) % 17 = 16); omega)
    · exact inv_next m c n hn h0 (acc_inv c n (Nat.lt_of_succ_lt hn))

/-! ## The stored block at a last column block -/

/-- The cell, of the arrays as the region finds them. -/
def result (c : Dev nD) : S2048x1024.Idx → EReal :=
  Cert.Spec.cell (V m c main_v0) (V m c main_arg3) (V m c main_arg4) (V m c main_arg5) (V m c main_arg6) (V m c main_arg7)
    (V m c main_arg8) (V m c main_arg9) (V m c main_arg10) (V m c main_arg11)

/-- At a last column block, over whatever the point before left: if the four accumulators end at the whole inner
    products, the stored block is the cell's block of rows `256 (t / 17) …`. -/
theorem out_of_C (c : Dev nD) (t : Fin cfg0.N) (h0 : ¬t.val % 17 = 0) (h1 : t.val % 17 = 16) (prev : Outs Ideal) (p : Fin 256) (q : Fin 1024)
    (i0 : (outsOfC m c t h0 h1 prev).2.1 (ix2 p q) = accN (zRow m c (rowOf t p)) (wRow (V m c main_arg4) q) (t.val % 17))
    (i1 : (outsOfC m c t h0 h1 prev).2.2.1 (ix2 p q) = accN (zRow m c (rowOf t p)) (wRow (V m c main_arg6) q) (t.val % 17))
    (i2 : (outsOfC m c t h0 h1 prev).2.2.2.1 (ix2 p q) = accN (zRow m c (rowOf t p)) (wRow (V m c main_arg8) q) (t.val % 17))
    (i3 : (outsOfC m c t h0 h1 prev).2.2.2.2 (ix2 p q) = accN (zRow m c (rowOf t p)) (wRow (V m c main_arg10) q) (t.val % 17)) :
    (outsOfC m c t h0 h1 prev).1 (ix2 p q) = result m c (ix2 (rowOf t p) q) := by
  have e0 := congrFun (pieceC_0 m c t h0 h1 prev) (ix2 p q)
  have e1 := congrFun (pieceC_1 m c t h0 h1 prev) (ix2 p q)
  have e2 := congrFun (pieceC_2 m c t h0 h1 prev) (ix2 p q)
  have e3 := congrFun (pieceC_3 m c t h0 h1 prev) (ix2 p q)
  rw [pieceC_out, pay2_apply, ← e0, ← e1, ← e2, ← e3, i0, i1, i2, i3,
    accN_last _ _ _ h1, accN_last _ _ _ h1, accN_last _ _ _ h1, accN_last _ _ _ h1,
    iblk5_apply, iblk6_apply, iblk7_apply, iblk8_apply, iblk9_apply]
  unfold result
  rw [Cert.Spec.cell_ix2]
  rfl

/-- At a last column block the output's staging buffer holds the cell's block of rows `256 (t / 17) …`. -/
theorem out_last (c : Dev nD) (t : Fin cfg0.N) (h1 : t.val % 17 = 16) (p : Fin 256) (q : Fin 1024) :
    (outsAt0 m c t.val t.isLt).1 (ix2 p q) = result m c (ix2 (rowOf t p) q) := by
  have h0 : ¬t.val % 17 = 0 := by omega
  have hi := acc_inv m c t.val t.isLt
  unfold AccInv at hi
  obtain ⟨i0, i1, i2, i3⟩ := hi p q
  rw [outsAt0_C m c t h0 h1] at i0 i1 i2 i3 ⊢
  exact out_of_C m c t h0 h1 _ p q i0 i1 i2 i3

/-! ## From the write-backs to the array -/

/-- Element `(p, q)` of the output block at `t` of a whole-array function is its entry `(256 (t / 17) + p, q)`. -/
theorem oblk10_apply (G : S2048x1024.Idx → EReal) (t : Fin cfg0.N) (p : Fin 256) (q : Fin 1024) :
    (((cfg0.win 10).blk t).view.read (Elt Ideal) G : S256x1024.Idx → EReal) (ix2 p q) = G (ix2 (rowOf t p) q) := by
  obtain ⟨e0, e1⟩ := idx10 t
  show G (((cfg0.win 10).blk t).view.emb (ix2 p q)) = G _
  congr 1
  funext a; apply Fin.ext
  match a with
  | ⟨0, _⟩ => show win0_10.index t (0 : Fin 2) * 256 + 1 * p.val = 256 * (t.val / 17) + p.val; omega
  | ⟨1, _⟩ => show win0_10.index t (1 : Fin 2) * 1024 + 1 * q.val = q.val; omega

/-- What each write-back writes is the cell's block there. -/
theorem flushed_eq (c : Dev nD) (t : Fin cfg0.N) (hf : (cfg0.win 10).flush t = true) :
    (dats m 0 c).flushed 10 t = ((cfg0.win 10).blk t).view.read (Elt Ideal) (result m c) := by
  have h1 : t.val % 17 = 16 := (flush0_10 t).mp hf
  show (cfg0.win 10).cut (grid0.coords t) ((dats m 0 c).after 10 t) = _
  rw [after0_10]
  show ((outsAt0 m c t.val t.isLt).1 : S256x1024.Idx → EReal) = (((cfg0.win 10).blk t).view.read (Elt Ideal) (result m c) : S256x1024.Idx → EReal)
  funext y
  obtain ⟨p, q, rfl⟩ : ∃ (p : Fin 256) (q : Fin 1024), y = ix2 p q := ⟨y 0, y 1, eq_ix2 y⟩
  rw [out_last m c t h1, oblk10_apply]

/-- So the result array ends holding the cell. -/
theorem final_out (c : Dev nD) : (dats m 0 c).arrAt 10 cfg0.N = result m c :=
  (dats m 0 c).arrAt_eq_of_cover 10 (result m c) (flushed_eq m c) covered10

/-- The cell of the arguments as launched: `z` their concatenation, the other arrays themselves. -/
theorem result_eq (c : Dev nD) :
    result m c = Cert.Spec.cell
      (concatenate S2048x4352 1 [⟨S2048x2304, m ((c : Thread nD τ).loc main_arg0)⟩, ⟨S2048x1024, m ((c : Thread nD τ).loc main_arg1)⟩, ⟨S2048x1024, m ((c : Thread nD τ).loc main_arg2)⟩] concatenates_S2048x2304_S2048x1024_S2048x1024_S2048x4352_d1)
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  unfold result
  rw [V_z, V_main_arg3, V_main_arg4, V_main_arg5, V_main_arg6, V_main_arg7, V_main_arg8, V_main_arg9, V_main_arg10, V_main_arg11]

/-! ## The run, read -/

/-- Every weakly fair execution terminates with the result array at the cell of the arguments and the twelve
    arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 10).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 9).trans (((dats m 0 c).arrAt_in 9 rfl _).trans ((A_eq m c 9).trans (V_main_arg3 m c))),
      ((h c).1 1).trans (((dats m 0 c).arrAt_in 1 rfl _).trans ((A_eq m c 1).trans (V_main_arg4 m c))),
      ((h c).1 5).trans (((dats m 0 c).arrAt_in 5 rfl _).trans ((A_eq m c 5).trans (V_main_arg5 m c))),
      ((h c).1 2).trans (((dats m 0 c).arrAt_in 2 rfl _).trans ((A_eq m c 2).trans (V_main_arg6 m c))),
      ((h c).1 6).trans (((dats m 0 c).arrAt_in 6 rfl _).trans ((A_eq m c 6).trans (V_main_arg7 m c))),
      ((h c).1 3).trans (((dats m 0 c).arrAt_in 3 rfl _).trans ((A_eq m c 3).trans (V_main_arg8 m c))),
      ((h c).1 7).trans (((dats m 0 c).arrAt_in 7 rfl _).trans ((A_eq m c 7).trans (V_main_arg9 m c))),
      ((h c).1 4).trans (((dats m 0 c).arrAt_in 4 rfl _).trans ((A_eq m c 4).trans (V_main_arg10 m c))),
      ((h c).1 8).trans (((dats m 0 c).arrAt_in 8 rfl _).trans ((A_eq m c 8).trans (V_main_arg11 m c)))⟩)
    (run_main (F := Ideal) m ρ)

end Cert.KernelIdeal.Val

end
-- ==== Proof.RefValue.lean ====
import proofs.«150288_j28784870818476_1_alg».proof.Proof.Gen.ReferenceIdeal.Read
import proofs.«150288_j28784870818476_1_alg».proof.Proof.Spec
import Idealize.ShloMosaic.PureOps.Ideal
import Idealize.ShloMosaic.Lib.ValueIdx
import Idealize.ShloMosaic.Lib.Pipeline.Value
import Mathlib.Algebra.BigOperators.Group.Finset.Basic
import Mathlib.Tactic.NormNum.Basic

/-!
# The reference computes the cell, index by index

The reference stacks the four gates' weight matrices into one matrix of 4096 rows and the four biases into one
vector of 4096 entries, multiplies `z` by the transposed stack, adds the stacked bias along every row, and cuts the
4096 columns of the result into four bands of 1024. Column `g * 1024 + h` of the product is the inner product of a
row of `z` with row `g * 1024 + h` of the stack, which is row `h` of gate `g`'s weights; the same column of the
stacked bias is gate `g`'s bias at `h`. So band `g` at row `r` and column `h` is gate `g`'s pre-activation at
`(r, h)`. The logistic function is spelled `1 / (1 + e^(-x))` with the constant one written as its bit pattern;
the remaining operations are the products, the sum and the hyperbolic tangents of the cell's update, entry by entry.
-/

noncomputable section

open scoped BigOperators

namespace Cert.RefValue

open Cert.ReferenceIdeal Cert.ReferenceIdeal.Gen Cert.ReferenceIdeal.Read Idealize.ShloMosaic Idealize.ShloMosaic.ValueIdx

/-- The contents of the first input, of a state-shaped input, of a gate's weights and of a gate's bias. -/
abbrev X := (⟨S2048x2304, .f32⟩ : BufTy).Contents (Elt Ideal)
abbrev H := (⟨S2048x1024, .f32⟩ : BufTy).Contents (Elt Ideal)
abbrev W := (⟨S1024x4352, .f32⟩ : BufTy).Contents (Elt Ideal)
abbrev B := (⟨S1024, .f32⟩ : BufTy).Contents (Elt Ideal)

/-! ## The constant one and the logistic function -/

/-- The pattern `0x3F800000` denotes the number one. -/
theorem one_bits : Ideal.ofBits .f32 0x3F800000#32 = 1 := by
  simp [Ideal.ofBits, Ideal.ieee, -EReal.coe_mul]; norm_num

/-- `1 / (1 + e^(-x))`, with both ones written as bit patterns, is the logistic function of `x`. -/
theorem logistic_spelled (x : EReal) :
    Ideal.div (Ideal.ofBits .f32 0x3F800000#32) (Ideal.ofBits .f32 0x3F800000#32 + Ideal.exp (-x)) = Ideal.logistic x := by
  rw [one_bits]; rfl

/-! ## The stacked weights and the stacked bias, read in each gate's band

Row `g * 1024 + h` of the stack of four matrices of 1024 rows is row `h` of the `g`-th matrix: the three pieces
before it have `g * 1024` rows together. The index at which the product's entry `(r, g * 1024 + h)` reads the
transposed stack at contraction position `k` is `(g * 1024 + h, k)` in the stack. -/

theorem weights_i (x4 x6 x8 x10 : W) (r : Fin 2048) (h : Fin 1024) (k : Fin 4352) :
    val_main_v1 (F := Ideal) x4 x6 x8 x10 (idx_main_v3 (ridx_main_v4 (idx_main_v8 (ix2 r h)) k)) = x4 (ix2 h k) := by
  unfold val_main_v1
  refine concatenate_apply_piece (t := S4096x4352) 0 _ _ _ 0 ?_ S1024x4352 x4 ?_ ?_ 0 ?_ (ix2 h k) ?_ ?_
  · show (0 : Nat) < 4
    decide
  · rfl
  · rfl
  · rfl
  · intro b hb
    match b with
    | ⟨0, _⟩ => exact absurd rfl hb
    | ⟨1, _⟩ => rfl
  · show 0 + h.val = h.val
    omega

theorem weights_f (x4 x6 x8 x10 : W) (r : Fin 2048) (h : Fin 1024) (k : Fin 4352) :
    val_main_v1 (F := Ideal) x4 x6 x8 x10 (idx_main_v3 (ridx_main_v4 (idx_main_v9 (ix2 r h)) k)) = x6 (ix2 h k) := by
  unfold val_main_v1
  refine concatenate_apply_piece (t := S4096x4352) 0 _ _ _ 1 ?_ S1024x4352 x6 ?_ ?_ 1024 ?_ (ix2 h k) ?_ ?_
  · show (1 : Nat) < 4
    decide
  · rfl
  · rfl
  · rfl
  · intro b hb
    match b with
    | ⟨0, _⟩ => exact absurd rfl hb
    | ⟨1, _⟩ => rfl
  · rfl

theorem weights_o (x4 x6 x8 x10 : W) (r : Fin 2048) (h : Fin 1024) (k : Fin 4352) :
    val_main_v1 (F := Ideal) x4 x6 x8 x10 (idx_main_v3 (ridx_main_v4 (idx_main_v10 (ix2 r h)) k)) = x8 (ix2 h k) := by
  unfold val_main_v1
  refine concatenate_apply_piece (t := S4096x4352) 0 _ _ _ 2 ?_ S1024x4352 x8 ?_ ?_ 2048 ?_ (ix2 h k) ?_ ?_
  · show (2 : Nat) < 4
    decide
  · rfl
  · rfl
  · rfl
  · intro b hb
    match b with
    | ⟨0, _⟩ => exact absurd rfl hb
    | ⟨1, _⟩ => rfl
  · rfl

theorem weights_s (x4 x6 x8 x10 : W) (r : Fin 2048) (h : Fin 1024) (k : Fin 4352) :
    val_main_v1 (F := Ideal) x4 x6 x8 x10 (idx_main_v3 (ridx_main_v4 (idx_main_v11 (ix2 r h)) k)) = x10 (ix2 h k) := by
  unfold val_main_v1
  refine concatenate_apply_piece (t := S4096x4352) 0 _ _ _ 3 ?_ S1024x4352 x10 ?_ ?_ 3072 ?_ (ix2 h k) ?_ ?_
  · show (3 : Nat) < 4
    decide
  · rfl
  · rfl
  · rfl
  · intro b hb
    match b with
    | ⟨0, _⟩ => exact absurd rfl hb
    | ⟨1, _⟩ => rfl
  · rfl

theorem bias_i (x5 x7 x9 x11 : B) (r : Fin 2048) (h : Fin 1024) :
    val_main_v2 (F := Ideal) x5 x7 x9 x11 (idx_main_v5 (idx_main_v6 (idx_main_v8 (ix2 r h)))) = x5 (ix1 h) := by
  unfold val_main_v2
  refine concatenate_apply_piece (t := S4096) 0 _ _ _ 0 ?_ S1024 x5 ?_ ?_ 0 ?_ (ix1 h) ?_ ?_
  · show (0 : Nat) < 4
    decide
  · rfl
  · rfl
  · rfl
  · intro b hb
    match b with
    | ⟨0, _⟩ => exact absurd rfl hb
  · show 0 + h.val = h.val
    omega

theorem bias_f (x5 x7 x9 x11 : B) (r : Fin 2048) (h : Fin 1024) :
    val_main_v2 (F := Ideal) x5 x7 x9 x11 (idx_main_v5 (idx_main_v6 (idx_main_v9 (ix2 r h)))) = x7 (ix1 h) := by
  unfold val_main_v2
  refine concatenate_apply_piece (t := S4096) 0 _ _ _ 1 ?_ S1024 x7 ?_ ?_ 1024 ?_ (ix1 h) ?_ ?_
  · show (1 : Nat) < 4
    decide
  · rfl
  · rfl
  · rfl
  · intro b hb
    match b with
    | ⟨0, _⟩ => exact absurd rfl hb
  · rfl

theorem bias_o (x5 x7 x9 x11 : B) (r : Fin 2048) (h : Fin 1024) :
    val_main_v2 (F := Ideal) x5 x7 x9 x11 (idx_main_v5 (idx_main_v6 (idx_main_v10 (ix2 r h)))) = x9 (ix1 h) := by
  unfold val_main_v2
  refine concatenate_apply_piece (t := S4096) 0 _ _ _ 2 ?_ S1024 x9 ?_ ?_ 2048 ?_ (ix1 h) ?_ ?_
  · show (2 : Nat) < 4
    decide
  · rfl
  · rfl
  · rfl
  · intro b hb
    match b with
    | ⟨0, _⟩ => exact absurd rfl hb
  · rfl

theorem bias_s (x5 x7 x9 x11 : B) (r : Fin 2048) (h : Fin 1024) :
    val_main_v2 (F := Ideal) x5 x7 x9 x11 (idx_main_v5 (idx_main_v6 (idx_main_v11 (ix2 r h)))) = x11 (ix1 h) := by
  unfold val_main_v2
  refine concatenate_apply_piece (t := S4096) 0 _ _ _ 3 ?_ S1024 x11 ?_ ?_ 3072 ?_ (ix1 h) ?_ ?_
  · show (3 : Nat) < 4
    decide
  · rfl
  · rfl
  · rfl
  · intro b hb
    match b with
    | ⟨0, _⟩ => exact absurd rfl hb
  · rfl

/-! ## The fused product plus bias at an index

Entry `j` of the product plus the broadcast bias: the inner product over the 4352 contraction positions of `z`
against the stack (read through the transposition), plus the stacked bias at `j`'s column. -/

theorem fused_at (x0 : X) (x1 x2 : H) (x4 : W) (x5 : B) (x6 : W) (x7 : B) (x8 : W) (x9 : B) (x10 : W) (x11 : B)
    (j : S2048x4096.Idx) :
    val_main_v7 (F := Ideal) x0 x1 x2 x4 x5 x6 x7 x8 x9 x10 x11 j
      = (∑ k : Fin 4352, val_main_v0 (F := Ideal) x0 x1 x2 (lidx_main_v4 j k)
            * val_main_v1 (F := Ideal) x4 x6 x8 x10 (idx_main_v3 (ridx_main_v4 j k)))
          + val_main_v2 (F := Ideal) x5 x7 x9 x11 (idx_main_v5 (idx_main_v6 j)) := by
  rw [val_main_v7_apply, val_main_v4_apply, val_main_v6_apply, val_main_v5_apply, Ideal.addf_def]
  refine congrArg (· + val_main_v2 (F := Ideal) x5 x7 x9 x11 (idx_main_v5 (idx_main_v6 j))) ?_
  refine Finset.sum_congr rfl fun k _ => ?_
  rw [val_main_v3_apply]

/-! ## Each band is its gate's pre-activation -/

theorem pre_i (x0 : X) (x1 x2 : H) (x4 : W) (x5 : B) (x6 : W) (x7 : B) (x8 : W) (x9 : B) (x10 : W) (x11 : B)
    (r : Fin 2048) (h : Fin 1024) :
    val_main_v8 (F := Ideal) x0 x1 x2 x4 x5 x6 x7 x8 x9 x10 x11 (ix2 r h)
      = Cert.Spec.pre (val_main_v0 (F := Ideal) x0 x1 x2) x4 x5 r h := by
  rw [val_main_v8_apply, fused_at, bias_i]
  unfold Cert.Spec.pre
  refine congrArg (· + x5 (ix1 h)) (Finset.sum_congr rfl fun k _ => ?_)
  rw [weights_i]
  refine congrArg (fun t => val_main_v0 (F := Ideal) x0 x1 x2 t * x4 (ix2 h k)) ?_
  exact funext fun a => Fin.ext (by match a with | ⟨0, _⟩ => rfl | ⟨1, _⟩ => rfl)

theorem pre_f (x0 : X) (x1 x2 : H) (x4 : W) (x5 : B) (x6 : W) (x7 : B) (x8 : W) (x9 : B) (x10 : W) (x11 : B)
    (r : Fin 2048) (h : Fin 1024) :
    val_main_v9 (F := Ideal) x0 x1 x2 x4 x5 x6 x7 x8 x9 x10 x11 (ix2 r h)
      = Cert.Spec.pre (val_main_v0 (F := Ideal) x0 x1 x2) x6 x7 r h := by
  rw [val_main_v9_apply, fused_at, bias_f]
  unfold Cert.Spec.pre
  refine congrArg (· + x7 (ix1 h)) (Finset.sum_congr rfl fun k _ => ?_)
  rw [weights_f]
  refine congrArg (fun t => val_main_v0 (F := Ideal) x0 x1 x2 t * x6 (ix2 h k)) ?_
  exact funext fun a => Fin.ext (by match a with | ⟨0, _⟩ => rfl | ⟨1, _⟩ => rfl)

theorem pre_o (x0 : X) (x1 x2 : H) (x4 : W) (x5 : B) (x6 : W) (x7 : B) (x8 : W) (x9 : B) (x10 : W) (x11 : B)
    (r : Fin 2048) (h : Fin 1024) :
    val_main_v10 (F := Ideal) x0 x1 x2 x4 x5 x6 x7 x8 x9 x10 x11 (ix2 r h)
      = Cert.Spec.pre (val_main_v0 (F := Ideal) x0 x1 x2) x8 x9 r h := by
  rw [val_main_v10_apply, fused_at, bias_o]
  unfold Cert.Spec.pre
  refine congrArg (· + x9 (ix1 h)) (Finset.sum_congr rfl fun k _ => ?_)
  rw [weights_o]
  refine congrArg (fun t => val_main_v0 (F := Ideal) x0 x1 x2 t * x8 (ix2 h k)) ?_
  exact funext fun a => Fin.ext (by match a with | ⟨0, _⟩ => rfl | ⟨1, _⟩ => rfl)

theorem pre_s (x0 : X) (x1 x2 : H) (x4 : W) (x5 : B) (x6 : W) (x7 : B) (x8 : W) (x9 : B) (x10 : W) (x11 : B)
    (r : Fin 2048) (h : Fin 1024) :
    val_main_v11 (F := Ideal) x0 x1 x2 x4 x5 x6 x7 x8 x9 x10 x11 (ix2 r h)
      = Cert.Spec.pre (val_main_v0 (F := Ideal) x0 x1 x2) x10 x11 r h := by
  rw [val_main_v11_apply, fused_at, bias_s]
  unfold Cert.Spec.pre
  refine congrArg (· + x11 (ix1 h)) (Finset.sum_congr rfl fun k _ => ?_)
  rw [weights_s]
  refine congrArg (fun t => val_main_v0 (F := Ideal) x0 x1 x2 t * x10 (ix2 h k)) ?_
  exact funext fun a => Fin.ext (by match a with | ⟨0, _⟩ => rfl | ⟨1, _⟩ => rfl)

/-! ## The three gates' logistic functions -/

theorem gate_i (x0 : X) (x1 x2 : H) (x4 : W) (x5 : B) (x6 : W) (x7 : B) (x8 : W) (x9 : B) (x10 : W) (x11 : B)
    (r : Fin 2048) (h : Fin 1024) :
    val_main_v17 (F := Ideal) x0 x1 x2 x4 x5 x6 x7 x8 x9 x10 x11 (ix2 r h)
      = Ideal.logistic (Cert.Spec.pre (val_main_v0 (F := Ideal) x0 x1 x2) x4 x5 r h) := by
  rw [val_main_v17_apply, val_main_v16_apply, val_main_cst_0_apply, val_main_v15_apply, val_main_v14_apply,
    val_main_cst_apply, val_main_v13_apply, val_main_v12_apply, pre_i]
  exact logistic_spelled _

theorem gate_f (x0 : X) (x1 x2 : H) (x4 : W) (x5 : B) (x6 : W) (x7 : B) (x8 : W) (x9 : B) (x10 : W) (x11 : B)
    (r : Fin 2048) (h : Fin 1024) :
    val_main_v23 (F := Ideal) x0 x1 x2 x4 x5 x6 x7 x8 x9 x10 x11 (ix2 r h)
      = Ideal.logistic (Cert.Spec.pre (val_main_v0 (F := Ideal) x0 x1 x2) x6 x7 r h) := by
  rw [val_main_v23_apply, val_main_v22_apply, val_main_cst_2_apply, val_main_v21_apply, val_main_v20_apply,
    val_main_cst_1_apply, val_main_v19_apply, val_main_v18_apply, pre_f]
  exact logistic_spelled _

theorem gate_o (x0 : X) (x1 x2 : H) (x4 : W) (x5 : B) (x6 : W) (x7 : B) (x8 : W) (x9 : B) (x10 : W) (x11 : B)
    (r : Fin 2048) (h : Fin 1024) :
    val_main_v29 (F := Ideal) x0 x1 x2 x4 x5 x6 x7 x8 x9 x10 x11 (ix2 r h)
      = Ideal.logistic (Cert.Spec.pre (val_main_v0 (F := Ideal) x0 x1 x2) x8 x9 r h) := by
  rw [val_main_v29_apply, val_main_v28_apply, val_main_cst_4_apply, val_main_v27_apply, val_main_v26_apply,
    val_main_cst_3_apply, val_main_v25_apply, val_main_v24_apply, pre_o]
  exact logistic_spelled _

/-! ## The reference's result is the cell -/

theorem ref_cell (x0 : (⟨Cert.ReferenceIdeal.S2048x2304, .f32⟩ : BufTy).Contents (Elt Ideal)) (x1 x2 x3 : (⟨Cert.ReferenceIdeal.S2048x1024, .f32⟩ : BufTy).Contents (Elt Ideal)) (x4 : (⟨Cert.ReferenceIdeal.S1024x4352, .f32⟩ : BufTy).Contents (Elt Ideal)) (x5 : (⟨Cert.ReferenceIdeal.S1024, .f32⟩ : BufTy).Contents (Elt Ideal)) (x6 : (⟨Cert.ReferenceIdeal.S1024x4352, .f32⟩ : BufTy).Contents (Elt Ideal)) (x7 : (⟨Cert.ReferenceIdeal.S1024, .f32⟩ : BufTy).Contents (Elt Ideal)) (x8 : (⟨Cert.ReferenceIdeal.S1024x4352, .f32⟩ : BufTy).Contents (Elt Ideal)) (x9 : (⟨Cert.ReferenceIdeal.S1024, .f32⟩ : BufTy).Contents (Elt Ideal)) (x10 : (⟨Cert.ReferenceIdeal.S1024x4352, .f32⟩ : BufTy).Contents (Elt Ideal)) (x11 : (⟨Cert.ReferenceIdeal.S1024, .f32⟩ : BufTy).Contents (Elt Ideal)) :
    Cert.ReferenceIdeal.Read.val_main_v35 (F := Ideal) x0 x1 x2 x3 x4 x5 x6 x7 x8 x9 x10 x11
      = Cert.Spec.cell (Cert.ReferenceIdeal.Read.val_main_v0 (F := Ideal) x0 x1 x2) x3 x4 x5 x6 x7 x8 x9 x10 x11 := by
  funext i
  obtain ⟨r, h, rfl⟩ : ∃ (r : Fin 2048) (h : Fin 1024), i = ix2 r h := ⟨i 0, i 1, eq_ix2 i⟩
  rw [Cert.Spec.cell_ix2, val_main_v35_apply, val_main_v34_apply, val_main_v33_apply, val_main_v30_apply,
    val_main_v32_apply, val_main_v31_apply, gate_o, gate_f, gate_i, pre_s]
  rfl

end Cert.RefValue

end
-- ==== Proof.lean ====
/-
  An LSTM cell, one fused kernel against its jnp reference, over the extended reals.

  Both programs form `z = [x | h_time | h_layer]` (2048 rows of 4352 entries) by the same host concatenation. For each
  of the four gates the pre-activation at row `r` and hidden unit `h` is the inner product of row `r` of `z` with
  row `h` of the gate's weight matrix, plus the gate's bias at `h`; the new hidden state is
  `σ(o) · tanh(σ(f) · c_old + σ(i) · tanh(s))`.

  The kernel runs on a grid of 8 row blocks by 17 column blocks. It keeps one accumulator per gate: zeroed at the first
  column block, and at every column block added the product of the 256 x 256 block of `z` with the transpose of the
  gate's 1024 x 256 weight block; at the last column block it adds the biases, applies the gates and stores the block
  of the new hidden state. The reference stacks the four weight matrices and the four biases, takes ONE contraction
  over all 4352 columns, slices the 4096 result columns back into the four gates, and spells the logistic function
  as `1 / (1 + exp(-x))`, which is what the logistic function is on the extended reals.

  The two results agree because the 17 block sums, added in order from zero, are the one sum over all columns: addition
  of extended reals is commutative and associative, and nothing else is used; in particular the precondition (every
  input finite) is never opened. The operands' truncation to bf16 before the kernel's matrix products is the identity
  on extended reals.

  The frames (each program runs to the end, faults nowhere, leaves its arguments unchanged) hold for any inputs: for the
  two kernel programs from the run of the region point by point (three kinds of point: first, middle and last column
  block), for the reference from its run.
-/
import proofs.«150288_j28784870818476_1_alg».proof.Defs
import proofs.«150288_j28784870818476_1_alg».proof.Proof.Gen.Kernel
import proofs.«150288_j28784870818476_1_alg».proof.Proof.Gen.KernelIdeal
import proofs.«150288_j28784870818476_1_alg».proof.Proof.Gen.ReferenceIdeal
import proofs.«150288_j28784870818476_1_alg».proof.Proof.Gen.Pre_finite_inputs
import proofs.«150288_j28784870818476_1_alg».proof.Proof.FrKernel.Frame
import proofs.«150288_j28784870818476_1_alg».proof.Proof.KValue
import proofs.«150288_j28784870818476_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Fr.frame (F := Bits) m ρ

/-- The idealized kernel program runs and keeps its arguments. -/
theorem frame_ki : Cert.frame_KernelIdeal := fun m ρ _ => Cert.KernelIdeal.Fr.frame (F := Ideal) m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the cell of the arguments in their result
    arrays: the kernel by its accumulation over the column blocks, the reference by its one contraction. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show _ = Cert.KernelIdeal.Val.result m c
  rw [Cert.ReferenceIdeal.Read.val_main_v35_eq, Cert.RefValue.ref_cell, Cert.KernelIdeal.Val.result_eq,
    a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
